-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x96 : Shape := ⟨2, ![262144, 96]⟩
abbrev S_ : Shape := ⟨0, ![]⟩

class Facts : Prop where
  bcast_S_S262144x96 : S_.BroadcastsInDim S262144x96 (![] : Fin 0 → Fin S262144x96.rank)
  reducesTo_S262144x96_S_d0_1 : S262144x96.ReducesTo [0, 1] S_
  h_S_ : 0 < S_.numel

variable [Facts]

def fn {F : FTy → Type} [FloatOps F] (main_arg0 : FVec F S262144x96 .f32) : IVec S_ 1 :=
  let main_v0 : FVec F S262144x96 .f32 := Host.absf main_arg0
  let main_cst : FVec F S_ .f32 := constant S_ .f32 0x7F800000#32
  let main_v1 : FVec F S262144x96 .f32 := broadcastInDim S262144x96 ![] bcast_S_S262144x96 main_cst
  let main_v2 : IVec S262144x96 1 := cmpf .olt main_v0 main_v1
  let main_c : IVec S_ 1 := constantI S_ 1 1#1
  let main_v3 : IVec S_ 1 := (fun x v => Host.reduce IntOp.andi x v reducesTo_S262144x96_S_d0_1 h_S_) main_v2 main_c
  main_v3
-- ==== Kernel.lean ====
abbrev S262144x96 : Shape := ⟨2, ![262144, 96]⟩
abbrev S262144x48 : Shape := ⟨2, ![262144, 48]⟩
abbrev S262144x16x3 : Shape := ⟨3, ![262144, 16, 3]⟩
abbrev S262144x16x1 : Shape := ⟨3, ![262144, 16, 1]⟩
abbrev S262144x16 : Shape := ⟨2, ![262144, 16]⟩
abbrev S262144x144 : Shape := ⟨2, ![262144, 144]⟩
abbrev S1024x48 : Shape := ⟨2, ![1024, 48]⟩
abbrev S1024x144 : Shape := ⟨2, ![1024, 144]⟩
abbrev S1024x16 : Shape := ⟨2, ![1024, 16]⟩
abbrev S1024x16x1 : Shape := ⟨3, ![1024, 16, 1]⟩
abbrev S1024x16x9 : Shape := ⟨3, ![1024, 16, 9]⟩
abbrev S262144x16x3x3 : Shape := ⟨4, ![262144, 16, 3, 3]⟩

abbrev nBuf : Space → Nat
  | .hbm => 15
  | .vmem => 8
  | .smem => 0
  | _ => 0

abbrev bufTy : (tb : Table) → Fin (tcTables nBuf tb) → BufTy
  | .hbm, ⟨0, _⟩ => ⟨S262144x96, .f32⟩
  | .hbm, ⟨1, _⟩ => ⟨S262144x48, .f32⟩
  | .hbm, ⟨2, _⟩ => ⟨S262144x16x3, .f32⟩
  | .hbm, ⟨3, _⟩ => ⟨S262144x16x1, .f32⟩
  | .hbm, ⟨4, _⟩ => ⟨S262144x16, .f32⟩
  | .hbm, ⟨5, _⟩ => ⟨S262144x16x1, .f32⟩
  | .hbm, ⟨6, _⟩ => ⟨S262144x16, .f32⟩
  | .hbm, ⟨7, _⟩ => ⟨S262144x16x1, .f32⟩
  | .hbm, ⟨8, _⟩ => ⟨S262144x16, .f32⟩
  | .hbm, ⟨9, _⟩ => ⟨S262144x48, .f32⟩
  | .hbm, ⟨10, _⟩ => ⟨S262144x48, .f32⟩
  | .hbm, ⟨11, _⟩ => ⟨S262144x144, .f32⟩
  | .hbm, ⟨12, _⟩ => ⟨S262144x48, .f32⟩
  | .hbm, ⟨13, _⟩ => ⟨S262144x16x3x3, .f32⟩
  | .hbm, ⟨14, _⟩ => ⟨S262144x16x3, .f32⟩
  | .local _ .vmem, ⟨0, _⟩ => ⟨S1024x48, .f32⟩
  | .local _ .vmem, ⟨1, _⟩ => ⟨S1024x48, .f32⟩
  | .local _ .vmem, ⟨2, _⟩ => ⟨S1024x48, .f32⟩
  | .local _ .vmem, ⟨3, _⟩ => ⟨S1024x48, .f32⟩
  | .local _ .vmem, ⟨4, _⟩ => ⟨S1024x144, .f32⟩
  | .local _ .vmem, ⟨5, _⟩ => ⟨S1024x144, .f32⟩
  | .local _ .vmem, ⟨6, _⟩ => ⟨S1024x48, .f32⟩
  | .local _ .vmem, ⟨7, _⟩ => ⟨S1024x48, .f32⟩
  | _, _ => ⟨S262144x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10_0 : Ref sig .tc := ⟨.hbm, 11, rfl⟩
abbrev main_v10_1 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S262144x96_S262144x48_0_0 : S262144x96.Slices ![0, 0] S262144x48
  shapeCasts_S262144x48_S262144x16x3 : S262144x48.ShapeCasts S262144x16x3
  slices_S262144x16x3_S262144x16x1_0_0_0 : S262144x16x3.Slices ![0, 0, 0] S262144x16x1
  shapeCasts_S262144x16x1_S262144x16 : S262144x16x1.ShapeCasts S262144x16
  slices_S262144x16x3_S262144x16x1_0_0_1 : S262144x16x3.Slices ![0, 0, 1] S262144x16x1
  slices_S262144x16x3_S262144x16x1_0_0_2 : S262144x16x3.Slices ![0, 0, 2] S262144x16x1
  concatenates_S262144x16_S262144x16_S262144x16_S262144x48_d1 : Shape.Concatenates [S262144x16, S262144x16, S262144x16] S262144x48 1
  slices_S262144x96_S262144x48_0_48 : S262144x96.Slices ![0, 48] S262144x48
  inb_S1024x48_S1024x48_0_0 : ∀ a, (![0, 0] : Fin 2 → Nat) a + S1024x48.size a ≤ S1024x48.size a
  h_S1024x48 : 0 < S1024x48.numel
  shapeCasts_S1024x48_S1024x48 : S1024x48.ShapeCasts S1024x48
  slices_S1024x48_o0_0_S1024x16 : S1024x48.Slices ![0, 0] S1024x16
  slices_S1024x48_o0_16_S1024x16 : S1024x48.Slices ![0, 16] S1024x16
  slices_S1024x48_o0_32_S1024x16 : S1024x48.Slices ![0, 32] S1024x16
  shapeCasts_S1024x16_S1024x16x1 : S1024x16.ShapeCasts S1024x16x1
  concatenates_S1024x16x1_S1024x16x1_S1024x16x1_S1024x16x1_S1024x16x1_S1024x16x1_S1024x16x1_S1024x16x1_S1024x16x1_S1024x16x9_d2 : Shape.Concatenates [S1024x16x1, S1024x16x1, S1024x16x1, S1024x16x1, S1024x16x1, S1024x16x1, S1024x16x1, S1024x16x1, S1024x16x1] S1024x16x9 2
  shapeCasts_S1024x16x9_S1024x144 : S1024x16x9.ShapeCasts S1024x144
  inb_S1024x144_S1024x144_0_0 : ∀ a, (![0, 0] : Fin 2 → Nat) a + S1024x144.size a ≤ S1024x144.size a
  h_S1024x144 : 0 < S1024x144.numel
  shapeCasts_S262144x144_S262144x16x3x3 : S262144x144.ShapeCasts S262144x16x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x48.size a ≤ S262144x48.size a
  hwx0_0 : ∀ i : grid0.Coords, EltTy.bits .f32 = 32 ∨ (Rect.block (s := S262144x48) S1024x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x48.size a ≤ S262144x48.size a
  hwx0_1 : ∀ i : grid0.Coords, EltTy.bits .f32 = 32 ∨ (Rect.block (s := S262144x48) S1024x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x144.size a ≤ S262144x144.size a
  hwx0_2 : ∀ i : grid0.Coords, EltTy.bits .f32 = 32 ∨ (Rect.block (s := S262144x144) S1024x144.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x48.size a ≤ S262144x48.size a
  hwx0_3 : ∀ i : grid0.Coords, EltTy.bits .f32 = 32 ∨ (Rect.block (s := S262144x48) S1024x48.size (cc0_transform_3 i) (hinb0_3 i)).WholeWords (EltTy.packing .f32)

variable [Facts₀]

abbrev win0_0 : Pipeline.Window sig grid0 :=
  Pipeline.Window.ofSpec (Memref.whole main_v8) S1024x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10_0) S1024x144.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10_1) S1024x48.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x96 : Shape := ⟨2, ![262144, 96]⟩
abbrev S262144x48 : Shape := ⟨2, ![262144, 48]⟩
abbrev S262144x16x3 : Shape := ⟨3, ![262144, 16, 3]⟩
abbrev S262144x16x1 : Shape := ⟨3, ![262144, 16, 1]⟩
abbrev S262144x16 : Shape := ⟨2, ![262144, 16]⟩
abbrev S_ : Shape := ⟨0, ![]⟩
abbrev S262144x16x1x3 : Shape := ⟨4, ![262144, 16, 1, 3]⟩
abbrev S262144x16x3x3 : Shape := ⟨4, ![262144, 16, 3, 3]⟩
abbrev S3x3 : Shape := ⟨2, ![3, 3]⟩
abbrev S262144x16x1x1 : Shape := ⟨4, ![262144, 16, 1, 1]⟩
abbrev S1x1x3x3 : Shape := ⟨4, ![1, 1, 3, 3]⟩

abbrev nBuf : Space → Nat
  | .hbm => 97
  | .vmem => 0
  | .smem => 0
  | _ => 0

abbrev bufTy : (tb : Table) → Fin (tcTables nBuf tb) → BufTy
  | .hbm, ⟨0, _⟩ => ⟨S262144x96, .f32⟩
  | .hbm, ⟨1, _⟩ => ⟨S262144x48, .f32⟩
  | .hbm, ⟨2, _⟩ => ⟨S262144x16x3, .f32⟩
  | .hbm, ⟨3, _⟩ => ⟨S262144x16x1, .f32⟩
  | .hbm, ⟨4, _⟩ => ⟨S262144x16, .f32⟩
  | .hbm, ⟨5, _⟩ => ⟨S262144x16x1, .f32⟩
  | .hbm, ⟨6, _⟩ => ⟨S262144x16, .f32⟩
  | .hbm, ⟨7, _⟩ => ⟨S262144x16x1, .f32⟩
  | .hbm, ⟨8, _⟩ => ⟨S262144x16, .f32⟩
  | .hbm, ⟨9, _⟩ => ⟨S_, .f32⟩
  | .hbm, ⟨10, _⟩ => ⟨S262144x16, .f32⟩
  | .hbm, ⟨11, _⟩ => ⟨S262144x16x1, .f32⟩
  | .hbm, ⟨12, _⟩ => ⟨S262144x16x1, .f32⟩
  | .hbm, ⟨13, _⟩ => ⟨S262144x16x1, .f32⟩
  | .hbm, ⟨14, _⟩ => ⟨S262144x16x3, .f32⟩
  | .hbm, ⟨15, _⟩ => ⟨S262144x16, .f32⟩
  | .hbm, ⟨16, _⟩ => ⟨S262144x16x1, .f32⟩
  | .hbm, ⟨17, _⟩ => ⟨S262144x16x1, .f32⟩
  | .hbm, ⟨18, _⟩ => ⟨S262144x16x1, .f32⟩
  | .hbm, ⟨19, _⟩ => ⟨S262144x16x3, .f32⟩
  | .hbm, ⟨20, _⟩ => ⟨S262144x16, .f32⟩
  | .hbm, ⟨21, _⟩ => ⟨S262144x16, .f32⟩
  | .hbm, ⟨22, _⟩ => ⟨S262144x16x1, .f32⟩
  | .hbm, ⟨23, _⟩ => ⟨S262144x16x1, .f32⟩
  | .hbm, ⟨24, _⟩ => ⟨S262144x16x1, .f32⟩
  | .hbm, ⟨25, _⟩ => ⟨S262144x16x3, .f32⟩
  | .hbm, ⟨26, _⟩ => ⟨S262144x16x1x3, .f32⟩
  | .hbm, ⟨27, _⟩ => ⟨S262144x16x1x3, .f32⟩
  | .hbm, ⟨28, _⟩ => ⟨S262144x16x1x3, .f32⟩
  | .hbm, ⟨29, _⟩ => ⟨S262144x16x3x3, .f32⟩
  | .hbm, ⟨30, _⟩ => ⟨S262144x16, .f32⟩
  | .hbm, ⟨31, _⟩ => ⟨S262144x16, .f32⟩
  | .hbm, ⟨32, _⟩ => ⟨S262144x16, .f32⟩
  | .hbm, ⟨33, _⟩ => ⟨S262144x16, .f32⟩
  | .hbm, ⟨34, _⟩ => ⟨S262144x16, .f32⟩
  | .hbm, ⟨35, _⟩ => ⟨S_, .f32⟩
  | .hbm, ⟨36, _⟩ => ⟨S262144x16, .f32⟩
  | .hbm, ⟨37, _⟩ => ⟨S262144x16, .i1⟩
  | .hbm, ⟨38, _⟩ => ⟨S_, .f32⟩
  | .hbm, ⟨39, _⟩ => ⟨S262144x16, .f32⟩
  | .hbm, ⟨40, _⟩ => ⟨S262144x16, .f32⟩
  | .hbm, ⟨41, _⟩ => ⟨S262144x16, .f32⟩
  | .hbm, ⟨42, _⟩ => ⟨S_, .f32⟩
  | .hbm, ⟨43, _⟩ => ⟨S262144x16, .f32⟩
  | .hbm, ⟨44, _⟩ => ⟨S262144x16, .f32⟩
  | .hbm, ⟨45, _⟩ => ⟨S_, .f32⟩
  | .hbm, ⟨46, _⟩ => ⟨S262144x16, .f32⟩
  | .hbm, ⟨47, _⟩ => ⟨S262144x16, .f32⟩
  | .hbm, ⟨48, _⟩ => ⟨S262144x16, .f32⟩
  | .hbm, ⟨49, _⟩ => ⟨S262144x16, .f32⟩
  | .hbm, ⟨50, _⟩ => ⟨S262144x16, .f32⟩
  | .hbm, ⟨51, _⟩ => ⟨S_, .f32⟩
  | .hbm, ⟨52, _⟩ => ⟨S262144x16, .f32⟩
  | .hbm, ⟨53, _⟩ => ⟨S262144x16, .f32⟩
  | .hbm, ⟨54, _⟩ => ⟨S_, .f32⟩
  | .hbm, ⟨55, _⟩ => ⟨S262144x16, .f32⟩
  | .hbm, ⟨56, _⟩ => ⟨S262144x16, .f32⟩
  | .hbm, ⟨57, _⟩ => ⟨S262144x16, .f32⟩
  | .hbm, ⟨58, _⟩ => ⟨S_, .f32⟩
  | .hbm, ⟨59, _⟩ => ⟨S262144x16, .f32⟩
  | .hbm, ⟨60, _⟩ => ⟨S262144x16, .f32⟩
  | .hbm, ⟨61, _⟩ => ⟨S262144x16, .f32⟩
  | .hbm, ⟨62, _⟩ => ⟨S262144x16, .f32⟩
  | .hbm, ⟨63, _⟩ => ⟨S262144x16x3x3, .f32⟩
  | .hbm, ⟨64, _⟩ => ⟨S3x3, .i32⟩
  | .hbm, ⟨65, _⟩ => ⟨S3x3, .i32⟩
  | .hbm, ⟨66, _⟩ => ⟨S_, .i32⟩
  | .hbm, ⟨67, _⟩ => ⟨S3x3, .i32⟩
  | .hbm, ⟨68, _⟩ => ⟨S3x3, .i32⟩
  | .hbm, ⟨69, _⟩ => ⟨S3x3, .i1⟩
  | .hbm, ⟨70, _⟩ => ⟨S3x3, .f32⟩
  | .hbm, ⟨71, _⟩ => ⟨S262144x16x1x1, .f32⟩
  | .hbm, ⟨72, _⟩ => ⟨S262144x16x3x3, .f32⟩
  | .hbm, ⟨73, _⟩ => ⟨S262144x16x3x3, .f32⟩
  | .hbm, ⟨74, _⟩ => ⟨S1x1x3x3, .f32⟩
  | .hbm, ⟨75, _⟩ => ⟨S262144x16x3x3, .f32⟩
  | .hbm, ⟨76, _⟩ => ⟨S262144x16x3x3, .f32⟩
  | .hbm, ⟨77, _⟩ => ⟨S262144x16x1x1, .f32⟩
  | .hbm, ⟨78, _⟩ => ⟨S262144x16x3x3, .f32⟩
  | .hbm, ⟨79, _⟩ => ⟨S262144x16x3x3, .f32⟩
  | .hbm, ⟨80, _⟩ => ⟨S262144x16x3x3, .f32⟩
  | .hbm, ⟨81, _⟩ => ⟨S262144x48, .f32⟩
  | .hbm, ⟨82, _⟩ => ⟨S262144x16x3, .f32⟩
  | .hbm, ⟨83, _⟩ => ⟨S262144x16x3, .f32⟩
  | .hbm, ⟨84, _⟩ => ⟨S262144x16x3, .f32⟩
  | .hbm, ⟨85, _⟩ => ⟨S_, .f32⟩
  | .hbm, ⟨86, _⟩ => ⟨S262144x16x3, .f32⟩
  | .hbm, ⟨87, _⟩ => ⟨S262144x16x3, .f32⟩
  | .hbm, ⟨88, _⟩ => ⟨S_, .f32⟩
  | .hbm, ⟨89, _⟩ => ⟨S262144x16x3, .f32⟩
  | .hbm, ⟨90, _⟩ => ⟨S262144x16x3, .f32⟩
  | .hbm, ⟨91, _⟩ => ⟨S_, .f32⟩
  | .hbm, ⟨92, _⟩ => ⟨S262144x16x3, .f32⟩
  | .hbm, ⟨93, _⟩ => ⟨S262144x16x3, .f32⟩
  | .hbm, ⟨94, _⟩ => ⟨S_, .f32⟩
  | .hbm, ⟨95, _⟩ => ⟨S262144x16x3, .f32⟩
  | .hbm, ⟨96, _⟩ => ⟨S262144x16x3, .f32⟩
  | _, _ => ⟨S262144x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_cst_0 : Ref sig .tc := ⟨.hbm, 35, rfl⟩
abbrev main_v33 : Ref sig .tc := ⟨.hbm, 36, rfl⟩
abbrev main_v34 : Ref sig .tc := ⟨.hbm, 37, rfl⟩
abbrev main_cst_1 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_cst_2 : Ref sig .tc := ⟨.hbm, 42, rfl⟩
abbrev main_v38 : Ref sig .tc := ⟨.hbm, 43, rfl⟩
abbrev main_v39 : Ref sig .tc := ⟨.hbm, 44, rfl⟩
abbrev main_cst_3 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_4 : Ref sig .tc := ⟨.hbm, 51, rfl⟩
abbrev main_v45 : Ref sig .tc := ⟨.hbm, 52, rfl⟩
abbrev main_v46 : Ref sig .tc := ⟨.hbm, 53, rfl⟩
abbrev main_cst_5 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_6 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_c : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_cst_7 : Ref sig .tc := ⟨.hbm, 85, rfl⟩
abbrev main_v75 : Ref sig .tc := ⟨.hbm, 86, rfl⟩
abbrev main_v76 : Ref sig .tc := ⟨.hbm, 87, rfl⟩
abbrev main_cst_8 : Ref sig .tc := ⟨.hbm, 88, rfl⟩
abbrev main_v77 : Ref sig .tc := ⟨.hbm, 89, rfl⟩
abbrev main_v78 : Ref sig .tc := ⟨.hbm, 90, rfl⟩
abbrev main_cst_9 : Ref sig .tc := ⟨.hbm, 91, rfl⟩
abbrev main_v79 : Ref sig .tc := ⟨.hbm, 92, rfl⟩
abbrev main_v80 : Ref sig .tc := ⟨.hbm, 93, rfl⟩
abbrev main_cst_10 : Ref sig .tc := ⟨.hbm, 94, rfl⟩
abbrev main_v81 : Ref sig .tc := ⟨.hbm, 95, rfl⟩
abbrev main_v82 : Ref sig .tc := ⟨.hbm, 96, rfl⟩

abbrev nD : Nat := 1
abbrev τ : Topo := Topo.v7x

variable {F : FTy → Type} [FloatOps F]

class Facts₀ : Prop where
  slices_S262144x96_S262144x48_0_0 : S262144x96.Slices ![0, 0] S262144x48
  shapeCasts_S262144x48_S262144x16x3 : S262144x48.ShapeCasts S262144x16x3
  slices_S262144x16x3_S262144x16x1_0_0_0 : S262144x16x3.Slices ![0, 0, 0] S262144x16x1
  shapeCasts_S262144x16x1_S262144x16 : S262144x16x1.ShapeCasts S262144x16
  slices_S262144x16x3_S262144x16x1_0_0_1 : S262144x16x3.Slices ![0, 0, 1] S262144x16x1
  slices_S262144x16x3_S262144x16x1_0_0_2 : S262144x16x3.Slices ![0, 0, 2] S262144x16x1
  bcast_S_S262144x16 : S_.BroadcastsInDim S262144x16 (![] : Fin 0 → Fin S262144x16.rank)
  bcast_S262144x16_S262144x16x1_0_1 : S262144x16.BroadcastsInDim S262144x16x1 (![0, 1] : Fin 2 → Fin S262144x16x1.rank)
  concatenates_S262144x16x1_S262144x16x1_S262144x16x1_S262144x16x3_d2 : Shape.Concatenates [S262144x16x1, S262144x16x1, S262144x16x1] S262144x16x3 2
  bcast_S262144x16x3_S262144x16x1x3_0_1_3 : S262144x16x3.BroadcastsInDim S262144x16x1x3 (![0, 1, 3] : Fin 3 → Fin S262144x16x1x3.rank)
  concatenates_S262144x16x1x3_S262144x16x1x3_S262144x16x1x3_S262144x16x3x3_d2 : Shape.Concatenates [S262144x16x1x3, S262144x16x1x3, S262144x16x1x3] S262144x16x3x3 2
  bcast_S_S3x3 : S_.BroadcastsInDim S3x3 (![] : Fin 0 → Fin S3x3.rank)
  bcast_S262144x16_S262144x16x1x1_0_1 : S262144x16.BroadcastsInDim S262144x16x1x1 (![0, 1] : Fin 2 → Fin S262144x16x1x1.rank)
  bcast_S262144x16x1x1_S262144x16x3x3_0_1_2_3 : S262144x16x1x1.BroadcastsInDim S262144x16x3x3 (![0, 1, 2, 3] : Fin 4 → Fin S262144x16x3x3.rank)
  bcast_S3x3_S1x1x3x3_2_3 : S3x3.BroadcastsInDim S1x1x3x3 (![2, 3] : Fin 2 → Fin S1x1x3x3.rank)
  bcast_S1x1x3x3_S262144x16x3x3_0_1_2_3 : S1x1x3x3.BroadcastsInDim S262144x16x3x3 (![0, 1, 2, 3] : Fin 4 → Fin S262144x16x3x3.rank)
  slices_S262144x96_S262144x48_0_48 : S262144x96.Slices ![0, 48] S262144x48
  bcast_S_S262144x16x3 : S_.BroadcastsInDim S262144x16x3 (![] : Fin 0 → Fin S262144x16x3.rank)
  dot_S262144x16x3x3_S262144x16x3x3_S262144x16x3x3_3_2_2_3_01_01_wf : DotDims.WF S262144x16x3x3 S262144x16x3x3 S262144x16x3x3 [3] [2] [2] [3] [0, 1] [0, 1]

variable [Facts₀]

def dot_S262144x16x3x3_S262144x16x3x3_S262144x16x3x3_3_2_2_3_01_01 : DotDims S262144x16x3x3 S262144x16x3x3 S262144x16x3x3 where
  lhsContracting := [3]
  rhsContracting := [2]
  lhsNonContracting := [2]
  rhsNonContracting := [3]
  lhsBatch := [0, 1]
  rhsBatch := [0, 1]
  wf := dot_S262144x16x3x3_S262144x16x3x3_S262144x16x3x3_3_2_2_3_01_01_wf

class Facts : Prop extends Facts₀ where

variable [Facts]
-- ==== Proof.KFrameBits.lean ====
/-
  The frame of the program: every weakly fair execution of @main terminates without a fault and leaves the argument
  array as it was; and, beyond the frame, what every buffer holds at the end.

  @main is ten host operations (the repacking of the axis vectors and the slice of the logits), one kernel region on a
  grid of 256 points, and two reshapes of the region's results. At every grid point the body loads the point's block of
  the packed axis array and of the logits, and stores one whole block of each result; it keeps nothing between points.
  So the proof data are: each input window's staging buffer holds its block of the array as the region found it, each
  output window's holds the body's function of the two input blocks, and the invariant is the untouched rest.
-/
import proofs.«181025_j83631603187719_1_alg».proof.Proof.Gen.Kernel.Launch
import proofs.«181025_j83631603187719_1_alg».proof.Proof.Gen.Kernel.Skeleton
import proofs.«181025_j83631603187719_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: after the ten host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the two reshapes after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshapes after the region touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the region (each writes its own result buffer only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.reshape_writes, Finset.mem_singleton] <;> exact StableHlo.devRef_ne_of_ne (by decide)

/-- No host operation before the region writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes the argument array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The packed axis window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The logits window's current staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- A run to the library's frame post, read at the argument array, is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

/-! ## The body's accesses and what it leaves in each result window's buffer -/

/-- The whole [1024, 48] block. -/
abbrev r48 : Rect S1024x48 := Rect.unit (s := S1024x48) ![0, 0] S1024x48.size inb_S1024x48_S1024x48_0_0
/-- The whole [1024, 144] block. -/
abbrev r144 : Rect S1024x144 := Rect.unit (s := S1024x144) ![0, 0] S1024x144.size inb_S1024x144_S1024x144_0_0

/-- The mean block the body stores, from the packed axis block it loaded. -/
def meanPay (v0 : Vec F S1024x48 .f32) : FVec F S1024x144 .f32 :=
  k0_pay1 (k0_pay5 v0) (k0_pay6 v0) (k0_pay7 v0) (k0_pay8 v0) (k0_pay10 v0) (k0_pay11 v0) (k0_pay13 v0) (k0_pay17 v0)
    (k0_pay18 v0) (k0_pay19 v0) (k0_pay20 v0) (k0_pay21 v0) (k0_pay22 v0) (k0_pay23 v0)

/-- The mean window's staging buffer after the body: its one whole-block store. -/
def out0_2 (x0 : Vec F S1024x48 .f32) : Vec F S1024x144 .f32 :=
  View.canon [⟨r144, meanPay (View.ld x0 r48)⟩]
/-- The log-variance window's staging buffer after the body: its one whole-block store. -/
def out0_3 (x1 : Vec F S1024x48 .f32) : Vec F S1024x48 .f32 :=
  View.canon [⟨r48, k0_pay2 (View.ld x1 r48)⟩]

theorem cover0_2 (p0 : Vec F S1024x144 .f32) (y : S1024x144.Idx) :
    ∃ pc ∈ ([⟨r144, p0⟩] : List (View.Piece (Elt F) S1024x144 .f32)), y ∈ pc.1.set :=
  View.cover_of_tiled [⟨r144, p0⟩] S1024x144.size (by rfl) y
theorem cover0_3 (p0 : Vec F S1024x48 .f32) (y : S1024x48.Idx) :
    ∃ pc ∈ ([⟨r48, p0⟩] : List (View.Piece (Elt F) S1024x48 .f32)), y ∈ pc.1.set :=
  View.cover_of_tiled [⟨r48, p0⟩] S1024x48.size (by rfl) y

/-! ## The body's triple -/

set_option maxHeartbeats 4000000 in
/-- The body on whole staging memrefs, the inputs' at contents x0 and x1 and the outputs' at anything, runs to the
    continuation with the inputs' as they were and the outputs' at the stored blocks. -/
theorem sound_kernel (c : Dev nD) (E : Set ℕ) (i : grid0.Coords) (arg1 : Memref sig .tc .vmem S1024x48 .f32) (harg1 : arg1.IsWhole) (arg2 : Memref sig .tc .vmem S1024x48 .f32) (harg2 : arg2.IsWhole) (arg3 : Memref sig .tc .vmem S1024x144 .f32) (harg3 : arg3.IsWhole) (arg4 : Memref sig .tc .vmem S1024x48 .f32) (harg4 : arg4.IsWhole)
    (x0 : Vec F S1024x48 .f32) (x1 : Vec F S1024x48 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0) ∗ owns (c : Thread nD τ) arg4 fullShare (out0_3 x1)) -∗ K ⟨⟩))
      ⊢ wp frame (wpE (defs₀ (F := F)) Variants.none c none) E (cc0__so3_kernel i arg1 harg1 arg2 harg2 arg3 harg3 arg4 harg4) K := by
  simp only [cc0__so3_kernel_eq_skeleton]; unfold cc0__so3_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (cover0_2 _)
  iexists _; isplitr
  swap; · iexact H3
  ipureintro
  try dsimp only
  exact View.read_writes_eq_canon _ _ _ (cover0_3 _)

/-! ## The proof data -/

/-- The arrays as the region finds them; after the body at point t each input's buffer at its block and each output's at
    the body's function of the input blocks; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t)
    | ⟨3, _⟩ => out0_3 (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) := by dsimp only [dats]
theorem after0_3 (c : Dev nD) (t : Fin cfg0.N) : (dats m 0 c).after 3 t = out0_3 (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the region at what the proof data give and every other buffer as the reshapes after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run ends with the argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Frm

end
-- ==== Proof.KFrame.lean ====
/-
  The frame of the program: every weakly fair execution of @main terminates without a fault and leaves the argument
  array as it was; and, beyond the frame, what every buffer holds at the end.

  @main is ten host operations (the repacking of the axis vectors and the slice of the logits), one kernel region on a
  grid of 256 points, and two reshapes of the region's results. At every grid point the body loads the point's block of
  the packed axis array and of the logits, and stores one whole block of each result; it keeps nothing between points.
  So the proof data are: each input window's staging buffer holds its block of the array as the region found it, each
  output window's holds the body's function of the two input blocks, and the invariant is the untouched rest.
-/
import proofs.«181025_j83631603187719_1_alg».proof.Proof.Gen.KernelIdeal.Launch
import proofs.«181025_j83631603187719_1_alg».proof.Proof.Gen.KernelIdeal.Skeleton
import proofs.«181025_j83631603187719_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: after the ten host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the two reshapes after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshapes after the region touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the region (each writes its own result buffer only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.reshape_writes, Finset.mem_singleton] <;> exact StableHlo.devRef_ne_of_ne (by decide)

/-- No host operation before the region writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes the argument array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The packed axis window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The logits window's current staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- A run to the library's frame post, read at the argument array, is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (W_main_arg0 m dats c))) h

/-! ## The body's accesses and what it leaves in each result window's buffer -/

/-- The whole [1024, 48] block. -/
abbrev r48 : Rect S1024x48 := Rect.unit (s := S1024x48) ![0, 0] S1024x48.size inb_S1024x48_S1024x48_0_0
/-- The whole [1024, 144] block. -/
abbrev r144 : Rect S1024x144 := Rect.unit (s := S1024x144) ![0, 0] S1024x144.size inb_S1024x144_S1024x144_0_0

/-- The mean block the body stores, from the packed axis block it loaded. -/
def meanPay (v0 : Vec F S1024x48 .f32) : FVec F S1024x144 .f32 :=
  k0_pay1 (k0_pay5 v0) (k0_pay6 v0) (k0_pay7 v0) (k0_pay8 v0) (k0_pay10 v0) (k0_pay11 v0) (k0_pay13 v0) (k0_pay17 v0)
    (k0_pay18 v0) (k0_pay19 v0) (k0_pay20 v0) (k0_pay21 v0) (k0_pay22 v0) (k0_pay23 v0)

/-- The mean window's staging buffer after the body: its one whole-block store. -/
def out0_2 (x0 : Vec F S1024x48 .f32) : Vec F S1024x144 .f32 :=
  View.canon [⟨r144, meanPay (View.ld x0 r48)⟩]
/-- The log-variance window's staging buffer after the body: its one whole-block store. -/
def out0_3 (x1 : Vec F S1024x48 .f32) : Vec F S1024x48 .f32 :=
  View.canon [⟨r48, k0_pay2 (View.ld x1 r48)⟩]

theorem cover0_2 (p0 : Vec F S1024x144 .f32) (y : S1024x144.Idx) :
    ∃ pc ∈ ([⟨r144, p0⟩] : List (View.Piece (Elt F) S1024x144 .f32)), y ∈ pc.1.set :=
  View.cover_of_tiled [⟨r144, p0⟩] S1024x144.size (by rfl) y
theorem cover0_3 (p0 : Vec F S1024x48 .f32) (y : S1024x48.Idx) :
    ∃ pc ∈ ([⟨r48, p0⟩] : List (View.Piece (Elt F) S1024x48 .f32)), y ∈ pc.1.set :=
  View.cover_of_tiled [⟨r48, p0⟩] S1024x48.size (by rfl) y

/-! ## The body's triple -/

set_option maxHeartbeats 4000000 in
/-- The body on whole staging memrefs, the inputs' at contents x0 and x1 and the outputs' at anything, runs to the
    continuation with the inputs' as they were and the outputs' at the stored blocks. -/
theorem sound_kernel (c : Dev nD) (E : Set ℕ) (i : grid0.Coords) (arg1 : Memref sig .tc .vmem S1024x48 .f32) (harg1 : arg1.IsWhole) (arg2 : Memref sig .tc .vmem S1024x48 .f32) (harg2 : arg2.IsWhole) (arg3 : Memref sig .tc .vmem S1024x144 .f32) (harg3 : arg3.IsWhole) (arg4 : Memref sig .tc .vmem S1024x48 .f32) (harg4 : arg4.IsWhole)
    (x0 : Vec F S1024x48 .f32) (x1 : Vec F S1024x48 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0) ∗ owns (c : Thread nD τ) arg4 fullShare (out0_3 x1)) -∗ K ⟨⟩))
      ⊢ wp frame (wpE (defs₀ (F := F)) Variants.none c none) E (cc0__so3_kernel i arg1 harg1 arg2 harg2 arg3 harg3 arg4 harg4) K := by
  simp only [cc0__so3_kernel_eq_skeleton]; unfold cc0__so3_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (cover0_2 _)
  iexists _; isplitr
  swap; · iexact H3
  ipureintro
  try dsimp only
  exact View.read_writes_eq_canon _ _ _ (cover0_3 _)

/-! ## The proof data -/

/-- The arrays as the region finds them; after the body at point t each input's buffer at its block and each output's at
    the body's function of the input blocks; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t)
    | ⟨3, _⟩ => out0_3 (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) := by dsimp only [dats]
theorem after0_3 (c : Dev nD) (t : Fin cfg0.N) : (dats m 0 c).after 3 t = out0_3 (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the region at what the proof data give and every other buffer as the reshapes after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run ends with the argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Frm

end
-- ==== Proof.Spec.lean ====
/-
  The mathematics of the claim, stated on the extended reals with no program in sight.

  A row of the input holds, for each of 16 Gaussians, an axis vector (a, b, c) (columns 3n, 3n+1, 3n+2) and, in the
  second half of the row, three logits. The mean is the rotation exp(A) of the skew matrix
  A = [[0, a, b], [-a, 0, c], [-b, -c, 0]], computed by Rodrigues' formula I + s1·A + s2·A² with
  s1 = sin t / t and s2 = (1 - cos t) / t², t² = a² + b² + c² (and their Taylor values below the threshold).
  One program multiplies A by itself entry by entry; the other uses the closed form A² = w wᵀ - t² I.
  Both agree entry by entry whenever a, b, c are real numbers, whatever the values of s1 and s2 are: only
  the ring laws of the reals and the laws x·0 = 0, x·(-r) = -(x·r), 0 + x = x, 0 - x = -x of the extended reals are used.
  The log-variance is 5.4·σ(x) - 9.2 on both sides, σ the logistic function spelled once as one operation and
  once as 1 / (1 + e^{-x}).
-/
import Idealize.ShloMosaic.PureOps.Ideal
import Idealize.ShloMosaic.PureOps.Ideal.Laws
import Idealize.ShloMosaic.Lib.IdealHost
import Idealize.ShloMosaic.Lib.ValueIdx

noncomputable section

open scoped BigOperators

namespace Cert.So3

open Idealize.ShloMosaic Idealize.ShloMosaic.ValueIdx

/-! ## The literals, as the extended reals their patterns denote -/

abbrev cEps : EReal := Ideal.ofBits .f32 0x322BCC77#32
abbrev cOne : EReal := Ideal.ofBits .f32 0x3F800000#32
abbrev cZero : EReal := Ideal.ofBits .f32 0x00000000#32
abbrev cSix : EReal := Ideal.ofBits .f32 0x40C00000#32
abbrev cTwentyFour : EReal := Ideal.ofBits .f32 0x41C00000#32
abbrev cHalf : EReal := Ideal.ofBits .f32 0x3F000000#32
abbrev cGain : EReal := Ideal.ofBits .f32 0x40ACCCCD#32
abbrev cShift : EReal := Ideal.ofBits .f32 0x41133333#32

/-! ## The rotation's coefficients -/

/-- The squared angle. -/
def th2 (a b c : EReal) : EReal := a * a + b * b + c * c
/-- Whether the squared angle is below the threshold. -/
def small (a b c : EReal) : BitVec 1 := Ideal.cmp .olt (th2 a b c) cEps
/-- The safe denominator: one below the threshold, the squared angle otherwise. -/
def t2 (a b c : EReal) : EReal := Scalar.select (small a b c) cOne (th2 a b c)
/-- sin t / t, or its Taylor value below the threshold. -/
def s1 (a b c : EReal) : EReal :=
  Scalar.select (small a b c) (cOne - Ideal.div (th2 a b c) cSix)
    (Ideal.div (Ideal.sin (Ideal.sqrt (t2 a b c))) (Ideal.sqrt (t2 a b c)))
/-- (1 - cos t) / t², or its Taylor value below the threshold. -/
def s2 (a b c : EReal) : EReal :=
  Scalar.select (small a b c) (cHalf - Ideal.div (th2 a b c) cTwentyFour)
    (Ideal.div (cOne - Ideal.cos (Ideal.sqrt (t2 a b c))) (t2 a b c))

/-! ## The nine entries, in closed form -/

/-- Entry 3·i + j of the rotation by the closed form of A². -/
def closedEntry (e : Fin 9) (a b c : EReal) : EReal :=
  match e with
  | ⟨0, _⟩ => cOne - s2 a b c * (th2 a b c - c * c)
  | ⟨1, _⟩ => s1 a b c * a - s2 a b c * (b * c)
  | ⟨2, _⟩ => s1 a b c * b + s2 a b c * (a * c)
  | ⟨3, _⟩ => (cZero - s1 a b c) * a - s2 a b c * (b * c)
  | ⟨4, _⟩ => cOne - s2 a b c * (th2 a b c - b * b)
  | ⟨5, _⟩ => s1 a b c * c - s2 a b c * (a * b)
  | ⟨6, _⟩ => (cZero - s1 a b c) * b + s2 a b c * (a * c)
  | ⟨7, _⟩ => (cZero - s1 a b c) * c - s2 a b c * (a * b)
  | ⟨8, _⟩ => cOne - s2 a b c * (th2 a b c - a * a)

/-! ## The nine entries, by the matrix product -/

/-- The skew matrix of (a, b, c). -/
def skew (a b c : EReal) (i j : Fin 3) : EReal :=
  match i, j with
  | ⟨0, _⟩, ⟨0, _⟩ => cZero | ⟨0, _⟩, ⟨1, _⟩ => a | ⟨0, _⟩, ⟨2, _⟩ => b
  | ⟨1, _⟩, ⟨0, _⟩ => -a | ⟨1, _⟩, ⟨1, _⟩ => cZero | ⟨1, _⟩, ⟨2, _⟩ => c
  | ⟨2, _⟩, ⟨0, _⟩ => -b | ⟨2, _⟩, ⟨1, _⟩ => -c | ⟨2, _⟩, ⟨2, _⟩ => cZero

/-- The identity matrix's entry, as the comparison of the two coordinates converted to a float. -/
def eye (i j : Fin 3) : EReal :=
  FloatOps.uitofp (F := Ideal) .f32 (IntOp.cmpi .eq (IntOp.addi (BitVec.ofNat 32 i.val) 0#32) (BitVec.ofNat 32 j.val))

/-- Entry (i, j) of I + s1·A + s2·(A·A). -/
def productEntry (i j : Fin 3) (a b c : EReal) : EReal :=
  (eye i j + s1 a b c * skew a b c i j) + s2 a b c * ∑ k : Fin 3, skew a b c i k * skew a b c k j

/-- The flat position of entry (i, j). -/
def flat (i j : Fin 3) : Fin 9 := ⟨3 * i.val + j.val, by have := i.isLt; have := j.isLt; omega⟩

/-! ## The literals one and zero, the identity's entries, and three laws of the extended reals -/

/-- The literal one is the number one. -/
private theorem cOne_eq : cOne = 1 := Ideal.ofBits_one_f32

/-- The identity's entry is one on the diagonal and zero off it: the comparison's bit, read as an unsigned integer. -/
private theorem eye_eq (i j : Fin 3) : eye i j = if i = j then 1 else 0 := by
  fin_cases i <;> fin_cases j <;> simp [eye, IntOp.cmpi, IntOp.addi, FloatOps.uitofp]

/-- Subtracting a product is adding the product with its second factor negated: x - y·r = x + y·(-r). -/
private theorem sub_mul_eq_add_mul_neg (x y r : EReal) : x - y * r = x + y * -r := by
  rw [sub_eq_add_neg, mul_neg]

/-- (0 - x)·r = x·(-r). -/
private theorem zero_sub_mul_eq_mul_neg (x r : EReal) : (0 - x) * r = x * -r := by
  rw [zero_sub, neg_mul, mul_neg]

/-- Two sums e + y·q agree when their last factors do. -/
private theorem add_mul_congr (e y : EReal) {q q' : EReal} (h : q = q') : e + y * q = e + y * q' := by
  rw [h]

/-- Rodrigues' formula by the closed form of A² is the formula by the matrix product, at real a, b, c. -/
theorem closedEntry_eq_productEntry (a b c : ℝ) (i j : Fin 3) :
    closedEntry (flat i j) a b c = productEntry i j a b c := by
  unfold productEntry
  rw [eye_eq, Fin.sum_univ_three]
  fin_cases i <;> fin_cases j
  all_goals
    -- The entry in its two spellings; the coefficients s1 and s2 are kept as unknowns x and y of the extended reals.
    simp only [closedEntry, flat, skew]
    generalize s1 (a : EReal) b c = x
    generalize s2 (a : EReal) b c = y
    first | rw [if_pos trivial] | rw [if_neg (by decide)]
    -- Both sides become e + y·q with one and the same e (1 on the diagonal, x·(±r) off it, r one of a, b, c)
    -- and q a polynomial in a, b, c: only x·0 = 0, e + 0 = e, 0 + e = e, x - y·r = x + y·(-r) and
    -- (0 - x)·r = x·(-r) are used on terms that hold x or y.
    simp only [Ideal.ofBits_one_f32, Ideal.ofBits_zero_f32, th2, sub_mul_eq_add_mul_neg, zero_sub_mul_eq_mul_neg,
      mul_zero, add_zero, zero_add]
    -- The two polynomials are one real number: on the diagonal -(a² + b² + c² - c²) = -a² - b² and its two
    -- siblings, off it the product of two of a, b, c with its sign.
    refine add_mul_congr _ y ?_
    norm_cast
    ring

/-! ## The log-variance -/

/-- 5.4·σ(x) - 9.2. -/
def logvar (x : EReal) : EReal := cGain * Ideal.logistic x - cShift

/-- The logistic function spelled 1 / (1 + e^{-x}) with the literal one. -/
theorem logvar_spelled (x : EReal) :
    cGain * Ideal.div cOne (cOne + Ideal.exp (-x)) - cShift = logvar x := by
  -- σ(x) is by definition 1 / (1 + e^{-x}), and the literal is the number one.
  unfold logvar Ideal.logistic
  rw [cOne_eq]

/-! ## The two results as functions of the input array -/

abbrev SZ : Shape := ⟨2, ![262144, 96]⟩
abbrev SM : Shape := ⟨4, ![262144, 16, 3, 3]⟩
abbrev SL : Shape := ⟨3, ![262144, 16, 3]⟩

/-- Column 3n + k of a row: component k of Gaussian n's axis vector. -/
def axisCol (n : Fin 16) (k : Fin 3) : Fin 96 := ⟨3 * n.val + k.val, by have := n.isLt; have := k.isLt; omega⟩
/-- Column 48 + 3n + k of a row: logit k of Gaussian n. -/
def logitCol (n : Fin 16) (k : Fin 3) : Fin 96 := ⟨48 + 3 * n.val + k.val, by have := n.isLt; have := k.isLt; omega⟩

/-- The mean, by the closed form. -/
def meanClosed (z : SZ.Idx → EReal) (R : Fin 262144) (n : Fin 16) (i j : Fin 3) : EReal :=
  closedEntry (flat i j) (z (ix2 R (axisCol n 0))) (z (ix2 R (axisCol n 1))) (z (ix2 R (axisCol n 2)))
/-- The mean, by the matrix product. -/
def meanProduct (z : SZ.Idx → EReal) (R : Fin 262144) (n : Fin 16) (i j : Fin 3) : EReal :=
  productEntry i j (z (ix2 R (axisCol n 0))) (z (ix2 R (axisCol n 1))) (z (ix2 R (axisCol n 2)))
/-- The log-variance. -/
def logvarOf (z : SZ.Idx → EReal) (R : Fin 262144) (n : Fin 16) (k : Fin 3) : EReal :=
  logvar (z (ix2 R (logitCol n k)))

/-- The mean as an array. -/
def meanArr (z : SZ.Idx → EReal) : SM.Idx → EReal := fun y => meanClosed z (y 0) (y 1) (y 2) (y 3)
/-- The log-variance as an array. -/
def logvarArr (z : SZ.Idx → EReal) : SL.Idx → EReal := fun y => logvarOf z (y 0) (y 1) (y 2)

/-- On an input of real numbers the two means are one array. -/
theorem meanClosed_eq_meanProduct (z : SZ.Idx → EReal) (hz : ∀ y, ∃ r : ℝ, z y = (r : EReal))
    (R : Fin 262144) (n : Fin 16) (i j : Fin 3) : meanClosed z R n i j = meanProduct z R n i j := by
  obtain ⟨a, ha⟩ := hz (ix2 R (axisCol n 0))
  obtain ⟨b, hb⟩ := hz (ix2 R (axisCol n 1))
  obtain ⟨c, hc⟩ := hz (ix2 R (axisCol n 2))
  unfold meanClosed meanProduct
  rw [ha, hb, hc]
  exact closedEntry_eq_productEntry a b c i j

end Cert.So3

end
-- ==== Proof.KPay.lean ====
/-
  What the kernel's body computes from one block of the packed axis array and one block of logits, read index by index:
  column 9n + e of a row of the mean block is entry e of the closed-form rotation of the Gaussian's axis vector, whose
  components sit at columns n, 16 + n and 32 + n of the packed block; every entry of the log-variance block is
  5.4·σ(x) - 9.2 of the logit at the same place.
-/
import proofs.«181025_j83631603187719_1_alg».proof.Proof.Gen.KernelIdeal.Skeleton
import proofs.«181025_j83631603187719_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.KPay

open Cert.KernelIdeal Cert.KernelIdeal.Gen Idealize.ShloMosaic Idealize.ShloMosaic.ValueIdx

variable {F : FTy → Type} [FloatOps F]

/-- The mean block the body stores, as a function of the packed axis block it loaded. -/
def meanBlk (x0 : Vec F S1024x48 .f32) : FVec F S1024x144 .f32 :=
  k0_pay1 (k0_pay5 x0) (k0_pay6 x0) (k0_pay7 x0) (k0_pay8 x0) (k0_pay10 x0) (k0_pay11 x0) (k0_pay13 x0) (k0_pay17 x0)
    (k0_pay18 x0) (k0_pay19 x0) (k0_pay20 x0) (k0_pay21 x0) (k0_pay22 x0) (k0_pay23 x0)

/-- Column 9n + e of the mean block. -/
def meanCol (n : Fin 16) (e : Fin 9) : Fin 144 := ⟨9 * n.val + e.val, by have := n.isLt; have := e.isLt; omega⟩
/-- Column n, 16 + n, 32 + n of the packed block: component k of Gaussian n's axis vector. -/
def packedCol (k : Fin 3) (n : Fin 16) : Fin 48 := ⟨16 * k.val + n.val, by have := n.isLt; have := k.isLt; omega⟩

/-! ## The three slices of the packed block -/

/-- The first slice reads columns 0..15. -/
theorem pay4_apply (x0 : Vec Ideal S1024x48 .f32) (p : Fin 1024) (n : Fin 16) :
    k0_pay4 (F := Ideal) x0 (ix2 p n) = x0 (ix2 p (packedCol 0 n)) := by
  unfold k0_pay4 k0_pay3
  rw [shapeCast_self]
  exact extractStridedSlice_apply ![0, 0] x0 slices_S1024x48_o0_0_S1024x16 (ix2 p n) (ix2 p (packedCol 0 n))
    (fun a => match a with
      | ⟨0, _⟩ => by show p.val = 0 + p.val; omega
      | ⟨1, _⟩ => by show 16 * 0 + n.val = 0 + n.val; omega)

/-- The second slice reads columns 16..31. -/
theorem pay5_apply (x0 : Vec Ideal S1024x48 .f32) (p : Fin 1024) (n : Fin 16) :
    k0_pay5 (F := Ideal) x0 (ix2 p n) = x0 (ix2 p (packedCol 1 n)) := by
  unfold k0_pay5 k0_pay3
  rw [shapeCast_self]
  exact extractStridedSlice_apply ![0, 16] x0 slices_S1024x48_o0_16_S1024x16 (ix2 p n) (ix2 p (packedCol 1 n))
    (fun a => match a with
      | ⟨0, _⟩ => by show p.val = 0 + p.val; omega
      | ⟨1, _⟩ => by show 16 * 1 + n.val = 16 + n.val; omega)

/-- The third slice reads columns 32..47. -/
theorem pay6_apply (x0 : Vec Ideal S1024x48 .f32) (p : Fin 1024) (n : Fin 16) :
    k0_pay6 (F := Ideal) x0 (ix2 p n) = x0 (ix2 p (packedCol 2 n)) := by
  unfold k0_pay6 k0_pay3
  rw [shapeCast_self]
  exact extractStridedSlice_apply ![0, 32] x0 slices_S1024x48_o0_32_S1024x16 (ix2 p n) (ix2 p (packedCol 2 n))
    (fun a => match a with
      | ⟨0, _⟩ => by show p.val = 0 + p.val; omega
      | ⟨1, _⟩ => by show 16 * 2 + n.val = 32 + n.val; omega)

/-! ## The layout: nine vectors joined along a unit axis and flattened -/

/-- The unit-axis view of a [1024,16] vector at (p, n, 0) is the vector at (p, n). -/
theorem unitView_apply (w : FVec Ideal S1024x16 .f32) (p : Fin 1024) (n : Fin 16) (z : Fin 1) :
    shapeCast S1024x16x1 w shapeCasts_S1024x16_S1024x16x1 (ix3 p n z) = w (ix2 p n) := by
  refine shapeCast_apply w shapeCasts_S1024x16_S1024x16x1 (ix3 p n z) (ix2 p n) ?_
  rw [Shape.rowMajor_val_three, Shape.rowMajor_val_two]
  have hz : z.val = 0 := by omega
  show p.val * 16 + n.val = (p.val * 16 + n.val) * 1 + z.val
  omega

/-- Nine [1024,16] vectors, each viewed [1024,16,1], joined along the last axis and viewed [1024,144]:
    column 9n + e of row p is vector e at (p, n), since p·144 + 9n + e = (p·16 + n)·9 + e. -/
theorem layout (w : Fin 9 → FVec Ideal S1024x16 .f32) (p : Fin 1024) (n : Fin 16) (e : Fin 9) :
    shapeCast S1024x144
      (concatenate S1024x16x9 2
        [⟨S1024x16x1, shapeCast S1024x16x1 (w 0) shapeCasts_S1024x16_S1024x16x1⟩,
         ⟨S1024x16x1, shapeCast S1024x16x1 (w 1) shapeCasts_S1024x16_S1024x16x1⟩,
         ⟨S1024x16x1, shapeCast S1024x16x1 (w 2) shapeCasts_S1024x16_S1024x16x1⟩,
         ⟨S1024x16x1, shapeCast S1024x16x1 (w 3) shapeCasts_S1024x16_S1024x16x1⟩,
         ⟨S1024x16x1, shapeCast S1024x16x1 (w 4) shapeCasts_S1024x16_S1024x16x1⟩,
         ⟨S1024x16x1, shapeCast S1024x16x1 (w 5) shapeCasts_S1024x16_S1024x16x1⟩,
         ⟨S1024x16x1, shapeCast S1024x16x1 (w 6) shapeCasts_S1024x16_S1024x16x1⟩,
         ⟨S1024x16x1, shapeCast S1024x16x1 (w 7) shapeCasts_S1024x16_S1024x16x1⟩,
         ⟨S1024x16x1, shapeCast S1024x16x1 (w 8) shapeCasts_S1024x16_S1024x16x1⟩]
        concatenates_S1024x16x1_S1024x16x1_S1024x16x1_S1024x16x1_S1024x16x1_S1024x16x1_S1024x16x1_S1024x16x1_S1024x16x1_S1024x16x9_d2)
      shapeCasts_S1024x16x9_S1024x144 (ix2 p (meanCol n e)) = w e (ix2 p n) := by
  refine (shapeCast_apply _ shapeCasts_S1024x16x9_S1024x144 (ix2 p (meanCol n e)) (ix3 p n e) ?_).trans ?_
  · rw [Shape.rowMajor_val_three, Shape.rowMajor_val_two]
    show (p.val * 16 + n.val) * 9 + e.val = p.val * 144 + (9 * n.val + e.val)
    omega
  refine (concatenate_apply_piece (2 : Fin S1024x16x9.rank) _ _ (ix3 p n e) e.val ?_ S1024x16x1
    (shapeCast S1024x16x1 (w e) shapeCasts_S1024x16_S1024x16x1) ?_ rfl e.val ?_ (ix3 p n (0 : Fin 1)) ?_ ?_).trans ?_
  · exact e.isLt
  · match e with
    | ⟨0, _⟩ => rfl | ⟨1, _⟩ => rfl | ⟨2, _⟩ => rfl | ⟨3, _⟩ => rfl | ⟨4, _⟩ => rfl
    | ⟨5, _⟩ => rfl | ⟨6, _⟩ => rfl | ⟨7, _⟩ => rfl | ⟨8, _⟩ => rfl
  · match e with
    | ⟨0, _⟩ => rfl | ⟨1, _⟩ => rfl | ⟨2, _⟩ => rfl | ⟨3, _⟩ => rfl | ⟨4, _⟩ => rfl
    | ⟨5, _⟩ => rfl | ⟨6, _⟩ => rfl | ⟨7, _⟩ => rfl | ⟨8, _⟩ => rfl
  · intro b hb
    match b with
    | ⟨0, _⟩ => rfl
    | ⟨1, _⟩ => rfl
    | ⟨2, _⟩ => exact absurd rfl hb
  · show e.val + 0 = e.val
    omega
  · exact unitView_apply (w e) p n 0

/-- The same with the nine vectors named one by one. -/
theorem layout9 (w0 w1 w2 w3 w4 w5 w6 w7 w8 : FVec Ideal S1024x16 .f32) (p : Fin 1024) (n : Fin 16) (e : Fin 9) :
    shapeCast S1024x144
      (concatenate S1024x16x9 2
        [⟨S1024x16x1, shapeCast S1024x16x1 w0 shapeCasts_S1024x16_S1024x16x1⟩,
         ⟨S1024x16x1, shapeCast S1024x16x1 w1 shapeCasts_S1024x16_S1024x16x1⟩,
         ⟨S1024x16x1, shapeCast S1024x16x1 w2 shapeCasts_S1024x16_S1024x16x1⟩,
         ⟨S1024x16x1, shapeCast S1024x16x1 w3 shapeCasts_S1024x16_S1024x16x1⟩,
         ⟨S1024x16x1, shapeCast S1024x16x1 w4 shapeCasts_S1024x16_S1024x16x1⟩,
         ⟨S1024x16x1, shapeCast S1024x16x1 w5 shapeCasts_S1024x16_S1024x16x1⟩,
         ⟨S1024x16x1, shapeCast S1024x16x1 w6 shapeCasts_S1024x16_S1024x16x1⟩,
         ⟨S1024x16x1, shapeCast S1024x16x1 w7 shapeCasts_S1024x16_S1024x16x1⟩,
         ⟨S1024x16x1, shapeCast S1024x16x1 w8 shapeCasts_S1024x16_S1024x16x1⟩]
        concatenates_S1024x16x1_S1024x16x1_S1024x16x1_S1024x16x1_S1024x16x1_S1024x16x1_S1024x16x1_S1024x16x1_S1024x16x1_S1024x16x9_d2)
      shapeCasts_S1024x16x9_S1024x144 (ix2 p (meanCol n e))
      = (![w0, w1, w2, w3, w4, w5, w6, w7, w8] e) (ix2 p n) :=
  layout ![w0, w1, w2, w3, w4, w5, w6, w7, w8] p n e

/-! ## The nine entries at one Gaussian -/

/-- The mean block at row p, column 9n + e, over the three slices' entries at (p, n). -/
theorem meanBlk_slices (x0 : Vec Ideal S1024x48 .f32) (p : Fin 1024) (n : Fin 16) (e : Fin 9) :
    meanBlk (F := Ideal) x0 (ix2 p (meanCol n e))
      = Cert.So3.closedEntry e (k0_pay4 (F := Ideal) x0 (ix2 p n)) (k0_pay5 (F := Ideal) x0 (ix2 p n))
          (k0_pay6 (F := Ideal) x0 (ix2 p n)) := by
  unfold meanBlk k0_pay1
  refine (layout9 _ _ _ _ _ _ _ _ _ p n e).trans ?_
  match e with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl

/-- The mean block at row p, column 9n + e. -/
theorem meanBlk_apply (x0 : Vec Ideal S1024x48 .f32) (p : Fin 1024) (n : Fin 16) (e : Fin 9) :
    meanBlk (F := Ideal) x0 (ix2 p (meanCol n e))
      = Cert.So3.closedEntry e (x0 (ix2 p (packedCol 0 n))) (x0 (ix2 p (packedCol 1 n))) (x0 (ix2 p (packedCol 2 n))) := by
  rw [← pay4_apply x0 p n, ← pay5_apply x0 p n, ← pay6_apply x0 p n]
  exact meanBlk_slices x0 p n e

/-- The log-variance block at any index. -/
theorem logvarBlk_apply (x1 : Vec Ideal S1024x48 .f32) (y : S1024x48.Idx) :
    k0_pay2 (F := Ideal) x1 y = Cert.So3.logvar (x1 y) := by
  unfold k0_pay2
  rw [shapeCast_self]
  rfl

end Cert.KernelIdeal.KPay

end
-- ==== Proof.KHost.lean ====
/-
  The plain array plumbing around the kernel, read index by index. Before the kernel, the first 48 columns of a row,
  (a, b, c) interleaved per Gaussian, are repacked as all the a's, then all the b's, then all the c's; the last 48 columns
  are the logits. After the kernel, row R of the [262144, 144] mean array is read as 16 matrices of 3 × 3 and row R of the
  [262144, 48] log-variance array as 16 triples.
-/
import proofs.«181025_j83631603187719_1_alg».proof.Proof.KPay
import Idealize.ShloMosaic.Lib.Pipeline.Value
import Idealize.ShloMosaic.Lib.ValueIdx
import Idealize.ShloMosaic.Lib.ValueLayout

noncomputable section

namespace Cert.KernelIdeal.KHost

open Cert.KernelIdeal Cert.KernelIdeal.Gen Cert.KernelIdeal.KPay Idealize.ShloMosaic Idealize.ShloMosaic.ValueIdx

variable {F : FTy → Type} [FloatOps F]

/-- The first half of the row as 16 triples. -/
def triples (z : FVec F S262144x96 .f32) : FVec F S262144x16x3 .f32 :=
  shapeCast S262144x16x3 (extractStridedSlice S262144x48 ![0, 0] z slices_S262144x96_S262144x48_0_0) shapeCasts_S262144x48_S262144x16x3

/-- The first components of the 16 axis vectors of every row. -/
def compA (z : FVec F S262144x96 .f32) : FVec F S262144x16 .f32 :=
  shapeCast S262144x16 (extractStridedSlice S262144x16x1 ![0, 0, 0] (triples z) slices_S262144x16x3_S262144x16x1_0_0_0) shapeCasts_S262144x16x1_S262144x16
/-- The second components. -/
def compB (z : FVec F S262144x96 .f32) : FVec F S262144x16 .f32 :=
  shapeCast S262144x16 (extractStridedSlice S262144x16x1 ![0, 0, 1] (triples z) slices_S262144x16x3_S262144x16x1_0_0_1) shapeCasts_S262144x16x1_S262144x16
/-- The third components. -/
def compC (z : FVec F S262144x96 .f32) : FVec F S262144x16 .f32 :=
  shapeCast S262144x16 (extractStridedSlice S262144x16x1 ![0, 0, 2] (triples z) slices_S262144x16x3_S262144x16x1_0_0_2) shapeCasts_S262144x16x1_S262144x16

/-- The packed axis array the kernel reads: the a's, the b's, the c's side by side. -/
def packed (z : FVec F S262144x96 .f32) : FVec F S262144x48 .f32 :=
  concatenate S262144x48 1 [⟨S262144x16, compA z⟩, ⟨S262144x16, compB z⟩, ⟨S262144x16, compC z⟩]
    concatenates_S262144x16_S262144x16_S262144x16_S262144x48_d1

/-- The logits the kernel reads: the second half of the row. -/
def logits (z : FVec F S262144x96 .f32) : FVec F S262144x48 .f32 :=
  extractStridedSlice S262144x48 ![0, 48] z slices_S262144x96_S262144x48_0_48

/-- The mean as the program returns it: each row of 144 read as 16 matrices of 3 × 3. -/
def meanOut (arr : FVec F S262144x144 .f32) : FVec F S262144x16x3x3 .f32 :=
  shapeCast S262144x16x3x3 arr shapeCasts_S262144x144_S262144x16x3x3
/-- The log-variance as the program returns it: each row of 48 read as 16 triples. -/
def logvarOut (arr : FVec F S262144x48 .f32) : FVec F S262144x16x3 .f32 :=
  shapeCast S262144x16x3 arr shapeCasts_S262144x48_S262144x16x3

/-- Column 3n + k of a row of 48. -/
def tripleCol (n : Fin 16) (k : Fin 3) : Fin 48 := ⟨3 * n.val + k.val, by have := n.isLt; have := k.isLt; omega⟩

/-! ## The pieces, read at an index -/

/-- Entry k of triple n of row R is column 3n + k of the input row. -/
theorem triples_apply (z : FVec F S262144x96 .f32) (R : Fin 262144) (n : Fin 16) (k : Fin 3) :
    triples z (ix3 R n k) = z (ix2 R (Cert.So3.axisCol n k)) := by
  unfold triples
  have hR := R.isLt; have hn := n.isLt; have hk := k.isLt
  refine (shapeCast_apply _ shapeCasts_S262144x48_S262144x16x3 (ix3 R n k) (ix2 R (tripleCol n k)) ?_).trans ?_
  · rewrite [Shape.rowMajor_val_two, Shape.rowMajor_val_three]
    show R.val * 48 + (3 * n.val + k.val) = (R.val * 16 + n.val) * 3 + k.val
    omega
  · exact extractStridedSlice_apply ![0, 0] z slices_S262144x96_S262144x48_0_0 (ix2 R (tripleCol n k))
      (ix2 R (Cert.So3.axisCol n k)) (fun a => match a with
        | ⟨0, _⟩ => by show R.val = 0 + R.val; omega
        | ⟨1, _⟩ => by show 3 * n.val + k.val = 0 + (3 * n.val + k.val); omega)

/-- The first components: entry n of row R is column 3n of the input row. -/
theorem compA_apply (z : FVec F S262144x96 .f32) (R : Fin 262144) (n : Fin 16) :
    compA z (ix2 R n) = z (ix2 R (Cert.So3.axisCol n 0)) := by
  unfold compA
  refine (shapeCast_apply _ shapeCasts_S262144x16x1_S262144x16 (ix2 R n) (ix3 R n (0 : Fin 1)) ?_).trans ?_
  · rewrite [Shape.rowMajor_val_three, Shape.rowMajor_val_two]
    show (R.val * 16 + n.val) * 1 + 0 = R.val * 16 + n.val
    omega
  · refine (extractStridedSlice_apply ![0, 0, 0] (triples z) slices_S262144x16x3_S262144x16x1_0_0_0 (ix3 R n (0 : Fin 1))
      (ix3 R n (0 : Fin 3)) (fun a => match a with
        | ⟨0, _⟩ => by show R.val = 0 + R.val; omega
        | ⟨1, _⟩ => by show n.val = 0 + n.val; omega
        | ⟨2, _⟩ => by show 0 = 0 + 0; omega)).trans ?_
    exact triples_apply z R n 0

/-- The second components: entry n of row R is column 3n + 1 of the input row. -/
theorem compB_apply (z : FVec F S262144x96 .f32) (R : Fin 262144) (n : Fin 16) :
    compB z (ix2 R n) = z (ix2 R (Cert.So3.axisCol n 1)) := by
  unfold compB
  refine (shapeCast_apply _ shapeCasts_S262144x16x1_S262144x16 (ix2 R n) (ix3 R n (0 : Fin 1)) ?_).trans ?_
  · rewrite [Shape.rowMajor_val_three, Shape.rowMajor_val_two]
    show (R.val * 16 + n.val) * 1 + 0 = R.val * 16 + n.val
    omega
  · refine (extractStridedSlice_apply ![0, 0, 1] (triples z) slices_S262144x16x3_S262144x16x1_0_0_1 (ix3 R n (0 : Fin 1))
      (ix3 R n (1 : Fin 3)) (fun a => match a with
        | ⟨0, _⟩ => by show R.val = 0 + R.val; omega
        | ⟨1, _⟩ => by show n.val = 0 + n.val; omega
        | ⟨2, _⟩ => by show 1 = 1 + 0; omega)).trans ?_
    exact triples_apply z R n 1

/-- The third components: entry n of row R is column 3n + 2 of the input row. -/
theorem compC_apply (z : FVec F S262144x96 .f32) (R : Fin 262144) (n : Fin 16) :
    compC z (ix2 R n) = z (ix2 R (Cert.So3.axisCol n 2)) := by
  unfold compC
  refine (shapeCast_apply _ shapeCasts_S262144x16x1_S262144x16 (ix2 R n) (ix3 R n (0 : Fin 1)) ?_).trans ?_
  · rewrite [Shape.rowMajor_val_three, Shape.rowMajor_val_two]
    show (R.val * 16 + n.val) * 1 + 0 = R.val * 16 + n.val
    omega
  · refine (extractStridedSlice_apply ![0, 0, 2] (triples z) slices_S262144x16x3_S262144x16x1_0_0_2 (ix3 R n (0 : Fin 1))
      (ix3 R n (2 : Fin 3)) (fun a => match a with
        | ⟨0, _⟩ => by show R.val = 0 + R.val; omega
        | ⟨1, _⟩ => by show n.val = 0 + n.val; omega
        | ⟨2, _⟩ => by show 2 = 2 + 0; omega)).trans ?_
    exact triples_apply z R n 2

/-- Piece k of the packed array, entry n of row R, is column 16k + n of it. -/
theorem packed_piece (z : FVec F S262144x96 .f32) (R : Fin 262144) (n : Fin 16) (k : Nat) (hk : k < 3)
    (x₁ : FVec F S262144x16 .f32)
    (hxk : [(⟨S262144x16, compA z⟩ : (s : Shape) × (s.Idx → F .f32)), ⟨S262144x16, compB z⟩, ⟨S262144x16, compC z⟩][k]'hk
      = ⟨S262144x16, x₁⟩)
    (hpre : ((([(⟨S262144x16, compA z⟩ : (s : Shape) × (s.Idx → F .f32)), ⟨S262144x16, compB z⟩, ⟨S262144x16, compC z⟩].take k).map (·.1)).map
      fun s => if h : s.rank = S262144x48.rank then s.size ((1 : Fin S262144x48.rank).cast h.symm) else 0).sum = 16 * k) :
    packed z (ix2 R (packedCol ⟨k, hk⟩ n)) = x₁ (ix2 R n) := by
  unfold packed
  exact concatenate_apply_piece (1 : Fin S262144x48.rank)
    [(⟨S262144x16, compA z⟩ : (s : Shape) × (s.Idx → F .f32)), ⟨S262144x16, compB z⟩, ⟨S262144x16, compC z⟩]
    concatenates_S262144x16_S262144x16_S262144x16_S262144x48_d1
    (ix2 R (packedCol ⟨k, hk⟩ n)) k hk S262144x16 x₁ hxk rfl (16 * k) hpre (ix2 R n)
    (fun b => match b with
      | ⟨0, _⟩ => fun _ => rfl
      | ⟨1, _⟩ => fun hb => absurd rfl hb)
    (by show 16 * k + n.val = 16 * k + n.val; rfl)

/-- Column 16k + n of the packed array is column 3n + k of the input row. -/
theorem packed_apply (z : FVec Ideal S262144x96 .f32) (R : Fin 262144) (k : Fin 3) (n : Fin 16) :
    packed (F := Ideal) z (ix2 R (packedCol k n)) = z (ix2 R (Cert.So3.axisCol n k)) := by
  match k with
  | ⟨0, hk⟩ => exact (packed_piece z R n 0 hk (compA z) rfl rfl).trans (compA_apply z R n)
  | ⟨1, hk⟩ => exact (packed_piece z R n 1 hk (compB z) rfl rfl).trans (compB_apply z R n)
  | ⟨2, hk⟩ => exact (packed_piece z R n 2 hk (compC z) rfl rfl).trans (compC_apply z R n)

/-- Column 3n + k of the logits is column 48 + 3n + k of the input row. -/
theorem logits_apply (z : FVec Ideal S262144x96 .f32) (R : Fin 262144) (n : Fin 16) (k : Fin 3) :
    logits (F := Ideal) z (ix2 R (tripleCol n k)) = z (ix2 R (Cert.So3.logitCol n k)) := by
  unfold logits
  exact extractStridedSlice_apply ![0, 48] z slices_S262144x96_S262144x48_0_48 (ix2 R (tripleCol n k))
    (ix2 R (Cert.So3.logitCol n k)) (fun a => match a with
      | ⟨0, _⟩ => by show R.val = 0 + R.val; omega
      | ⟨1, _⟩ => by show 48 + 3 * n.val + k.val = 48 + (3 * n.val + k.val); omega)

/-- Entry (i, j) of matrix n of row R is column 9n + 3i + j of the row of 144. -/
theorem meanOut_apply (arr : FVec Ideal S262144x144 .f32) (R : Fin 262144) (n : Fin 16) (i j : Fin 3) :
    meanOut (F := Ideal) arr (ix4 R n i j) = arr (ix2 R (meanCol n (Cert.So3.flat i j))) := by
  unfold meanOut
  have hR := R.isLt; have hn := n.isLt; have hi := i.isLt; have hj := j.isLt
  refine shapeCast_apply arr shapeCasts_S262144x144_S262144x16x3x3 (ix4 R n i j) (ix2 R (meanCol n (Cert.So3.flat i j))) ?_
  rewrite [Shape.rowMajor_val_two, Shape.rowMajor_val_four]
  show R.val * 144 + (9 * n.val + (3 * i.val + j.val)) = ((R.val * 16 + n.val) * 3 + i.val) * 3 + j.val
  omega

/-- Entry k of triple n of row R is column 3n + k of the row of 48. -/
theorem logvarOut_apply (arr : FVec Ideal S262144x48 .f32) (R : Fin 262144) (n : Fin 16) (k : Fin 3) :
    logvarOut (F := Ideal) arr (ix3 R n k) = arr (ix2 R (tripleCol n k)) := by
  unfold logvarOut
  have hR := R.isLt; have hn := n.isLt; have hk := k.isLt
  refine shapeCast_apply arr shapeCasts_S262144x48_S262144x16x3 (ix3 R n k) (ix2 R (tripleCol n k)) ?_
  rewrite [Shape.rowMajor_val_two, Shape.rowMajor_val_three]
  show R.val * 48 + (3 * n.val + k.val) = (R.val * 16 + n.val) * 3 + k.val
  omega

end Cert.KernelIdeal.KHost

end
-- ==== Proof.KBlocks.lean ====
/-
  The kernel's two result arrays after the run, as whole-array functions of the input array: every row of the mean array
  holds, at column 9n + e, entry e of the closed-form rotation of Gaussian n's axis vector, read from the same row of the
  packed axis array; every entry of the log-variance array is 5.4·σ(x) - 9.2 of the logit at the same place. Each grid
  point t owns rows 1024·t … 1024·t + 1023 of all four arrays, so the 256 blocks tile the arrays, and the body's block at
  point t is block t of the whole-array function.
-/
import proofs.«181025_j83631603187719_1_alg».proof.Proof.KFrame
import proofs.«181025_j83631603187719_1_alg».proof.Proof.KPay
import proofs.«181025_j83631603187719_1_alg».proof.Proof.KHost
import Idealize.ShloMosaic.Lib.Pipeline.Value
import Idealize.ShloMosaic.Lib.ValueIdx
import Idealize.ShloMosaic.Lib.StableHlo.Run

set_option maxRecDepth 16384

noncomputable section

namespace Cert.KernelIdeal.KBlocks

open Cert.KernelIdeal Cert.KernelIdeal.Gen Cert.KernelIdeal.Frm Cert.KernelIdeal.KPay Cert.KernelIdeal.KHost
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- Every window's block index at point t is (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 256 := lt_of_lt_of_eq t.isLt N_0

/-- Row p of point t's blocks is row 1024·t + p of the arrays. -/
def rowOf (t : Fin cfg0.N) (p : Fin 1024) : Fin 262144 := ⟨1024 * t.val + p.val, by have := t_lt t; have := p.isLt; omega⟩

/-! ## The whole-array functions -/

/-- The mean array from the packed axis array. -/
def meanOf (P : S262144x48.Idx → EReal) : S262144x144.Idx → EReal := fun i =>
  let R : Fin 262144 := i 0
  let n : Fin 16 := ⟨(i 1).val / 9, by have h : (i 1).val < 144 := (i 1).isLt; omega⟩
  Cert.So3.closedEntry ⟨(i 1).val % 9, Nat.mod_lt _ (by decide)⟩
    (P (ix2 R (packedCol 0 n))) (P (ix2 R (packedCol 1 n))) (P (ix2 R (packedCol 2 n)))

/-- The log-variance array from the logits. -/
def logvarOfLogits (L : S262144x48.Idx → EReal) : S262144x48.Idx → EReal := fun i => Cert.So3.logvar (L i)

theorem meanOf_at (P : S262144x48.Idx → EReal) (R : Fin 262144) (n : Fin 16) (e : Fin 9) :
    meanOf P (ix2 R (meanCol n e))
      = Cert.So3.closedEntry e (P (ix2 R (packedCol 0 n))) (P (ix2 R (packedCol 1 n))) (P (ix2 R (packedCol 2 n))) := by
  have hn : (⟨(9 * n.val + e.val) / 9, by have := n.isLt; have := e.isLt; omega⟩ : Fin 16) = n :=
    Fin.ext (by show (9 * n.val + e.val) / 9 = n.val; have := e.isLt; omega)
  have he : (⟨(9 * n.val + e.val) % 9, Nat.mod_lt _ (by decide)⟩ : Fin 9) = e :=
    Fin.ext (by show (9 * n.val + e.val) % 9 = e.val; have := e.isLt; omega)
  show Cert.So3.closedEntry ⟨(9 * n.val + e.val) % 9, _⟩
      (P (ix2 R (packedCol 0 ⟨(9 * n.val + e.val) / 9, _⟩))) (P (ix2 R (packedCol 1 ⟨(9 * n.val + e.val) / 9, _⟩)))
      (P (ix2 R (packedCol 2 ⟨(9 * n.val + e.val) / 9, _⟩))) = _
  rw [hn, he]

/-! ## The blocks -/

/-- The packed axis block at point t, at its literal type. -/
abbrev axisBlk (c : Dev nD) (t : Fin cfg0.N) : Vec Ideal S1024x48 .f32 := iblk m c 0 t
/-- The logits block at point t, at its literal type. -/
abbrev logitBlk (c : Dev nD) (t : Fin cfg0.N) : Vec Ideal S1024x48 .f32 := iblk m c 1 t

theorem axisBlk_apply (c : Dev nD) (t : Fin cfg0.N) (p : Fin 1024) (q : Fin 48) :
    axisBlk m c t (ix2 p q) = (V m c main_v8 : S262144x48.Idx → EReal) (ix2 (rowOf t p) q) := by
  obtain ⟨e0, e1, -⟩ := idx_facts t
  show (V m c main_v8 : S262144x48.Idx → EReal) (((cfg0.win 0).blk t).view.emb (ix2 p q)) = _
  congr 1
  funext a; apply Fin.ext
  match a with
  | ⟨0, _⟩ => show win0_0.index t (0 : Fin 2) * 1024 + 1 * p.val = 1024 * t.val + p.val; omega
  | ⟨1, _⟩ => show win0_0.index t (1 : Fin 2) * 48 + 1 * q.val = q.val; omega

theorem logitBlk_apply (c : Dev nD) (t : Fin cfg0.N) (p : Fin 1024) (q : Fin 48) :
    logitBlk m c t (ix2 p q) = (V m c main_v9 : S262144x48.Idx → EReal) (ix2 (rowOf t p) q) := by
  obtain ⟨-, -, e2, e3, -⟩ := idx_facts t
  show (V m c main_v9 : S262144x48.Idx → EReal) (((cfg0.win 1).blk t).view.emb (ix2 p q)) = _
  congr 1
  funext a; apply Fin.ext
  match a with
  | ⟨0, _⟩ => show win0_1.index t (0 : Fin 2) * 1024 + 1 * p.val = 1024 * t.val + p.val; omega
  | ⟨1, _⟩ => show win0_1.index t (1 : Fin 2) * 48 + 1 * q.val = q.val; omega

/-- What point t writes back to the mean array is block t of the whole-array function. -/
theorem flushed2_eq (c : Dev nD) (t : Fin cfg0.N) :
    (dats m 0 c).flushed 2 t = ((cfg0.win 2).blk t).view.read (Elt Ideal) (meanOf (V m c main_v8)) := by
  show (cfg0.win 2).cut (grid0.coords t) ((dats m 0 c).after 2 t) = _
  rw [after0_2]
  unfold out0_2
  rw [View.canon_unit_zero hz]
  simp only [View.ld_unit_zero (S := S1024x48) hz]
  obtain ⟨-, -, -, -, e4, e5, -⟩ := idx_facts t
  funext j
  obtain ⟨p, q, rfl⟩ : ∃ (p : Fin 1024) (q : Fin 144), j = ix2 p q := ⟨j 0, j 1, eq_ix2 j⟩
  obtain ⟨n, e, rfl⟩ : ∃ (n : Fin 16) (e : Fin 9), q = meanCol n e :=
    ⟨⟨q.val / 9, by have := q.isLt; omega⟩, ⟨q.val % 9, Nat.mod_lt _ (by decide)⟩,
      Fin.ext (by show q.val = 9 * (q.val / 9) + q.val % 9; omega)⟩
  show meanBlk (axisBlk m c t) (ix2 p (meanCol n e))
      = meanOf (V m c main_v8) (((cfg0.win 2).blk t).view.emb (ix2 p (meanCol n e)))
  have hemb : ((cfg0.win 2).blk t).view.emb (ix2 p (meanCol n e)) = (ix2 (rowOf t p) (meanCol n e) : S262144x144.Idx) := by
    funext a; apply Fin.ext
    match a with
    | ⟨0, _⟩ => show win0_2.index t (0 : Fin 2) * 1024 + 1 * p.val = 1024 * t.val + p.val; omega
    | ⟨1, _⟩ => show win0_2.index t (1 : Fin 2) * 144 + 1 * (meanCol n e).val = (meanCol n e).val; omega
  rw [hemb, meanOf_at, meanBlk_apply, axisBlk_apply, axisBlk_apply, axisBlk_apply]

/-- What point t writes back to the log-variance array is block t of the whole-array function. -/
theorem flushed3_eq (c : Dev nD) (t : Fin cfg0.N) :
    (dats m 0 c).flushed 3 t = ((cfg0.win 3).blk t).view.read (Elt Ideal) (logvarOfLogits (V m c main_v9)) := by
  show (cfg0.win 3).cut (grid0.coords t) ((dats m 0 c).after 3 t) = _
  rw [after0_3]
  unfold out0_3
  rw [View.canon_unit_zero hz]
  simp only [View.ld_unit_zero (S := S1024x48) hz]
  obtain ⟨-, -, -, -, -, -, e6, e7⟩ := idx_facts t
  funext j
  obtain ⟨p, q, rfl⟩ : ∃ (p : Fin 1024) (q : Fin 48), j = ix2 p q := ⟨j 0, j 1, eq_ix2 j⟩
  show k0_pay2 (logitBlk m c t) (ix2 p q)
      = logvarOfLogits (V m c main_v9) (((cfg0.win 3).blk t).view.emb (ix2 p q))
  have hemb : ((cfg0.win 3).blk t).view.emb (ix2 p q) = (ix2 (rowOf t p) q : S262144x48.Idx) := by
    funext a; apply Fin.ext
    match a with
    | ⟨0, _⟩ => show win0_3.index t (0 : Fin 2) * 1024 + 1 * p.val = 1024 * t.val + p.val; omega
    | ⟨1, _⟩ => show win0_3.index t (1 : Fin 2) * 48 + 1 * q.val = q.val; omega
  rw [hemb, logvarBlk_apply, logitBlk_apply]
  rfl

/-! ## The blocks tile the arrays -/

theorem mem_blk2 (t : Fin cfg0.N) (i : S262144x144.Idx) :
    i ∈ ((cfg0.win 2).blk t).view.set ↔ ∀ a : Fin 2, win0_2.index t a * S1024x144.size a ≤ (i a).val ∧ (i a).val < win0_2.index t a * S1024x144.size a + S1024x144.size a := by
  show i ∈ ((View.whole main_v10_0).slice (win0_2.rect t)).set ↔ _
  rw [View.set_slice_whole, Rect.mem_set_unit]
  exact Iff.rfl

theorem mem_blk3 (t : Fin cfg0.N) (i : S262144x48.Idx) :
    i ∈ ((cfg0.win 3).blk t).view.set ↔ ∀ a : Fin 2, win0_3.index t a * S1024x48.size a ≤ (i a).val ∧ (i a).val < win0_3.index t a * S1024x48.size a + S1024x48.size a := by
  show i ∈ ((View.whole main_v10_1).slice (win0_3.rect t)).set ↔ _
  rw [View.set_slice_whole, Rect.mem_set_unit]
  exact Iff.rfl

theorem cover2 (i : S262144x144.Idx) :
    ∃ t : Fin cfg0.N, (cfg0.win 2).flush t = true ∧ i ∈ ((cfg0.win 2).blk t).view.set := by
  have hi0 : (i 0).val < 262144 := (i 0).isLt
  have hi1 : (i 1).val < 144 := (i 1).isLt
  have hN : cfg0.N = 256 := N_0
  let t : Fin cfg0.N := ⟨(i 0).val / 1024, by rw [hN]; omega⟩
  have ht : t.val = (i 0).val / 1024 := rfl
  obtain ⟨-, -, -, -, e4, e5, -⟩ := idx_facts t
  refine ⟨t, flush0_2 t, ?_⟩
  rw [mem_blk2]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 144 ≤ (i 1).val ∧ (i 1).val < win0_2.index t (1 : Fin 2) * 144 + 144; omega

theorem cover3 (i : S262144x48.Idx) :
    ∃ t : Fin cfg0.N, (cfg0.win 3).flush t = true ∧ i ∈ ((cfg0.win 3).blk t).view.set := by
  have hi0 : (i 0).val < 262144 := (i 0).isLt
  have hi1 : (i 1).val < 48 := (i 1).isLt
  have hN : cfg0.N = 256 := N_0
  let t : Fin cfg0.N := ⟨(i 0).val / 1024, by rw [hN]; omega⟩
  have ht : t.val = (i 0).val / 1024 := rfl
  obtain ⟨-, -, -, -, -, -, e6, e7⟩ := idx_facts t
  refine ⟨t, flush0_3 t, ?_⟩
  rw [mem_blk3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 48 ≤ (i 1).val ∧ (i 1).val < win0_3.index t (1 : Fin 2) * 48 + 48; omega

/-- The mean array after the run. -/
theorem final2 (c : Dev nD) : (dats m 0 c).arrAt 2 cfg0.N = meanOf (V m c main_v8) :=
  (dats m 0 c).arrAt_eq_of_cover 2 (meanOf (V m c main_v8)) (fun t _ => flushed2_eq m c t) cover2

/-- The log-variance array after the run. -/
theorem final3 (c : Dev nD) : (dats m 0 c).arrAt 3 cfg0.N = logvarOfLogits (V m c main_v9) :=
  (dats m 0 c).arrAt_eq_of_cover 3 (logvarOfLogits (V m c main_v9)) (fun t _ => flushed3_eq m c t) cover3

end Cert.KernelIdeal.KBlocks

end
-- ==== Proof.KRun.lean ====
/-
  The idealized kernel program's run, read: it ends with the mean result at the closed-form rotation of each Gaussian's
  axis vector, the log-variance result at 5.4·σ(x) - 9.2 of each logit, and the input array as launched. The arrays the
  region reads are the repacked axis vectors and the logits; the two results are the region's arrays reshaped.
-/
import proofs.«181025_j83631603187719_1_alg».proof.Proof.KBlocks

set_option maxRecDepth 16384

noncomputable section

namespace Cert.KernelIdeal.KRun

open Cert.KernelIdeal Cert.KernelIdeal.Gen Cert.KernelIdeal.Frm Cert.KernelIdeal.KPay Cert.KernelIdeal.KHost Cert.KernelIdeal.KBlocks
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The region finds the packed axis array in its first window's array. -/
theorem V_v8 (c : Dev nD) :
    (V m c main_v8 : S262144x48.Idx → EReal) = packed (F := Ideal) (m ((c : Thread nD τ).loc main_arg0)) := by
  show StableHlo.after hostOps0 (fun b => m (c, b)) (Proc.devRef .tc main_v8) = _
  after_results
  rfl

/-- The region finds the logits in its second window's array. -/
theorem V_v9 (c : Dev nD) :
    (V m c main_v9 : S262144x48.Idx → EReal) = logits (F := Ideal) (m ((c : Thread nD τ).loc main_arg0)) := by
  show StableHlo.after hostOps0 (fun b => m (c, b)) (Proc.devRef .tc main_v9) = _
  after_results
  rfl

/-- The mean result is the region's first result array reshaped. -/
theorem tail_v11 (c : Dev nD) :
    Pipeline.afterTail₀ cfgs (dats m) 0 (V0 m) [hostOps1] c main_v11 = meanOut (F := Ideal) ((dats m 0 c).arrAt 2 cfg0.N) := by
  have e : Pipeline.withArrays (cfgs 0).spec c (V0 m c) (fun w => (dats m 0 c).arrAt w (cfgs 0).N) (Proc.devRef .tc main_v10_0)
      = (dats m 0 c).arrAt 2 cfg0.N :=
    Pipeline.withArrays_arr spec0 launch0.win.arr_inj c (V0 m c) (fun w => (dats m 0 c).arrAt w (cfgs 0).N) 2
  unfold Pipeline.afterTail₀
  show StableHlo.after hostOps1 _ (Proc.devRef .tc main_v11) = _
  after_results
  rw [e]
  rfl

/-- The log-variance result is the region's second result array reshaped. -/
theorem tail_v12 (c : Dev nD) :
    Pipeline.afterTail₀ cfgs (dats m) 0 (V0 m) [hostOps1] c main_v12 = logvarOut (F := Ideal) ((dats m 0 c).arrAt 3 cfg0.N) := by
  have e : Pipeline.withArrays (cfgs 0).spec c (V0 m c) (fun w => (dats m 0 c).arrAt w (cfgs 0).N) (Proc.devRef .tc main_v10_1)
      = (dats m 0 c).arrAt 3 cfg0.N :=
    Pipeline.withArrays_arr spec0 launch0.win.arr_inj c (V0 m c) (fun w => (dats m 0 c).arrAt w (cfgs 0).N) 3
  unfold Pipeline.afterTail₀
  show StableHlo.after hostOps1 _ (Proc.devRef .tc main_v12) = _
  after_results
  rw [e]
  rfl

/-- The mean result as a function of the input array. -/
theorem mean_result (c : Dev nD) :
    meanOut (F := Ideal) ((dats m 0 c).arrAt 2 cfg0.N) = Cert.So3.meanArr (m ((c : Thread nD τ).loc main_arg0)) := by
  rw [final2, V_v8]
  funext y
  obtain ⟨R, n, i, j, rfl⟩ : ∃ (R : Fin 262144) (n : Fin 16) (i j : Fin 3), y = ix4 R n i j := ⟨y 0, y 1, y 2, y 3, eq_ix4 y⟩
  rw [meanOut_apply, meanOf_at, packed_apply, packed_apply, packed_apply]
  rfl

/-- The log-variance result as a function of the input array. -/
theorem logvar_result (c : Dev nD) :
    logvarOut (F := Ideal) ((dats m 0 c).arrAt 3 cfg0.N) = Cert.So3.logvarArr (m ((c : Thread nD τ).loc main_arg0)) := by
  rw [final3, V_v9]
  funext y
  obtain ⟨R, n, k, rfl⟩ : ∃ (R : Fin 262144) (n : Fin 16) (k : Fin 3), y = ix3 R n k := ⟨y 0, y 1, y 2, eq_ix3 y⟩
  rw [logvarOut_apply]
  show Cert.So3.logvar (logits (F := Ideal) (m ((c : Thread nD τ).loc main_arg0)) (ix2 R (tripleCol n k))) = _
  rw [logits_apply]
  rfl

/-- The run, read. -/
theorem run : θ_run defs (onTc (τ := τ) (main (F := Ideal))) ⟨m, fun _ => 0, ρ⟩ fun r => ∀ c : Dev nD,
      r.2.mem ((c.tc : Thread nD τ).loc main_v11) = Cert.So3.meanArr (m ((c.tc : Thread nD τ).loc main_arg0))
      ∧ r.2.mem ((c.tc : Thread nD τ).loc main_v12) = Cert.So3.logvarArr (m ((c.tc : Thread nD τ).loc main_arg0))
      ∧ r.2.mem ((c.tc : Thread nD τ).loc main_arg0) = m ((c.tc : Thread nD τ).loc main_arg0) :=
  (θ_run defs _ _).mono (fun r h c =>
    ⟨((h c).2 main_v11 (Pipeline.mem_restRefs_of main_v11 (by decide) (by decide))).trans ((tail_v11 m c).trans (mean_result m c)),
     ((h c).2 main_v12 (Pipeline.mem_restRefs_of main_v12 (by decide) (by decide))).trans ((tail_v12 m c).trans (logvar_result m c)),
     ((h c).2 main_arg0 (Pipeline.mem_restRefs_of main_arg0 (by decide) (by decide))).trans (W_main_arg0 m (dats m) c)⟩)
    (run_main m ρ)

end Cert.KernelIdeal.KRun

end
-- ==== Proof.RefValue.lean ====
/-
  The reference's two results, read index by index, are the matrix-product form of Rodrigues' formula and the
  log-variance 5.4·σ(x) - 9.2 of the input row's entries.
-/
import proofs.«181025_j83631603187719_1_alg».proof.Proof.Gen.ReferenceIdeal.Read
import proofs.«181025_j83631603187719_1_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.So3 (axisCol logitCol)

/-! ## The axis vector's three components -/

/-- The first component of Gaussian n's axis vector is column 3n of the row. -/
theorem a_apply (z : (⟨S262144x96, .f32⟩ : BufTy).Contents (Elt Ideal)) (R : Fin 262144) (n : Fin 16) :
    val_main_v3 (F := Ideal) z (ix2 R n) = z (ix2 R (axisCol n 0)) := by
  have e : idx_main_v0 (idx_main_v1 (idx_main_v2 (idx_main_v3 (ix2 R n)))) = ix2 R (axisCol n 0) := by
    funext a
    match a with
    | ⟨0, _⟩ => exact Fin.ext (show (((R.val * 16 + n.val) / 16 * 16 + (R.val * 16 + n.val) / 1 % 16) * 3 + 0) / 48 = R.val by omega)
    | ⟨1, _⟩ => exact Fin.ext (show (((R.val * 16 + n.val) / 16 * 16 + (R.val * 16 + n.val) / 1 % 16) * 3 + 0) % 48 = 3 * n.val + 0 by omega)
  rw [val_main_v3_apply, val_main_v2_apply, val_main_v1_apply, val_main_v0_apply, e]

/-- The second component is column 3n + 1. -/
theorem b_apply (z : (⟨S262144x96, .f32⟩ : BufTy).Contents (Elt Ideal)) (R : Fin 262144) (n : Fin 16) :
    val_main_v5 (F := Ideal) z (ix2 R n) = z (ix2 R (axisCol n 1)) := by
  have e : idx_main_v0 (idx_main_v1 (idx_main_v4 (idx_main_v5 (ix2 R n)))) = ix2 R (axisCol n 1) := by
    funext a
    match a with
    | ⟨0, _⟩ => exact Fin.ext (show (((R.val * 16 + n.val) / 16 * 16 + (R.val * 16 + n.val) / 1 % 16) * 3 + (1 + 0)) / 48 = R.val by omega)
    | ⟨1, _⟩ => exact Fin.ext (show (((R.val * 16 + n.val) / 16 * 16 + (R.val * 16 + n.val) / 1 % 16) * 3 + (1 + 0)) % 48 = 3 * n.val + 1 by omega)
  rw [val_main_v5_apply, val_main_v4_apply, val_main_v1_apply, val_main_v0_apply, e]

/-- The third component is column 3n + 2. -/
theorem c_apply (z : (⟨S262144x96, .f32⟩ : BufTy).Contents (Elt Ideal)) (R : Fin 262144) (n : Fin 16) :
    val_main_v7 (F := Ideal) z (ix2 R n) = z (ix2 R (axisCol n 2)) := by
  have e : idx_main_v0 (idx_main_v1 (idx_main_v6 (idx_main_v7 (ix2 R n)))) = ix2 R (axisCol n 2) := by
    funext a
    match a with
    | ⟨0, _⟩ => exact Fin.ext (show (((R.val * 16 + n.val) / 16 * 16 + (R.val * 16 + n.val) / 1 % 16) * 3 + (2 + 0)) / 48 = R.val by omega)
    | ⟨1, _⟩ => exact Fin.ext (show (((R.val * 16 + n.val) / 16 * 16 + (R.val * 16 + n.val) / 1 % 16) * 3 + (2 + 0)) % 48 = 3 * n.val + 2 by omega)
  rw [val_main_v7_apply, val_main_v6_apply, val_main_v1_apply, val_main_v0_apply, e]

/-- The broadcast zero. -/
theorem zero_apply (i : S262144x16.Idx) : val_main_v8 (F := Ideal) i = Cert.So3.cZero := by
  rw [val_main_v8_apply, val_main_cst_apply]
  rfl

/-! ## A join of three unit pieces along an axis reads piece k at coordinate k -/

section Join
variable {α : Type}

theorem join3_0 (x0 x1 x2 : S262144x16x1.Idx → α) (h) (R : Fin 262144) (n : Fin 16) :
    concatenate S262144x16x3 2 [⟨S262144x16x1, x0⟩, ⟨S262144x16x1, x1⟩, ⟨S262144x16x1, x2⟩] h (ix3 R n (0 : Fin 3))
      = x0 (ix3 R n (0 : Fin 1)) := by
  refine concatenate_apply_piece 2 _ h _ 0 (show (0 : Nat) < 3 by omega) S262144x16x1 x0 rfl rfl 0 rfl (ix3 R n 0) ?_ ?_
  · intro b hb
    match b with
    | ⟨0, _⟩ => rfl
    | ⟨1, _⟩ => rfl
    | ⟨2, _⟩ => exact absurd rfl hb
  · rfl

theorem join3_1 (x0 x1 x2 : S262144x16x1.Idx → α) (h) (R : Fin 262144) (n : Fin 16) :
    concatenate S262144x16x3 2 [⟨S262144x16x1, x0⟩, ⟨S262144x16x1, x1⟩, ⟨S262144x16x1, x2⟩] h (ix3 R n (1 : Fin 3))
      = x1 (ix3 R n (0 : Fin 1)) := by
  refine concatenate_apply_piece 2 _ h _ 1 (show (1 : Nat) < 3 by omega) S262144x16x1 x1 rfl rfl 1 rfl (ix3 R n 0) ?_ ?_
  · intro b hb
    match b with
    | ⟨0, _⟩ => rfl
    | ⟨1, _⟩ => rfl
    | ⟨2, _⟩ => exact absurd rfl hb
  · rfl

theorem join3_2 (x0 x1 x2 : S262144x16x1.Idx → α) (h) (R : Fin 262144) (n : Fin 16) :
    concatenate S262144x16x3 2 [⟨S262144x16x1, x0⟩, ⟨S262144x16x1, x1⟩, ⟨S262144x16x1, x2⟩] h (ix3 R n (2 : Fin 3))
      = x2 (ix3 R n (0 : Fin 1)) := by
  refine concatenate_apply_piece 2 _ h _ 2 (show (2 : Nat) < 3 by omega) S262144x16x1 x2 rfl rfl 2 rfl (ix3 R n 0) ?_ ?_
  · intro b hb
    match b with
    | ⟨0, _⟩ => rfl
    | ⟨1, _⟩ => rfl
    | ⟨2, _⟩ => exact absurd rfl hb
  · rfl

theorem join4_0 (x0 x1 x2 : S262144x16x1x3.Idx → α) (h) (R : Fin 262144) (n : Fin 16) (j : Fin 3) :
    concatenate S262144x16x3x3 2 [⟨S262144x16x1x3, x0⟩, ⟨S262144x16x1x3, x1⟩, ⟨S262144x16x1x3, x2⟩] h (ix4 R n (0 : Fin 3) j)
      = x0 (ix4 R n (0 : Fin 1) j) := by
  refine concatenate_apply_piece 2 _ h _ 0 (show (0 : Nat) < 3 by omega) S262144x16x1x3 x0 rfl rfl 0 rfl (ix4 R n 0 j) ?_ ?_
  · intro b hb
    match b with
    | ⟨0, _⟩ => rfl
    | ⟨1, _⟩ => rfl
    | ⟨2, _⟩ => exact absurd rfl hb
    | ⟨3, _⟩ => rfl
  · rfl

theorem join4_1 (x0 x1 x2 : S262144x16x1x3.Idx → α) (h) (R : Fin 262144) (n : Fin 16) (j : Fin 3) :
    concatenate S262144x16x3x3 2 [⟨S262144x16x1x3, x0⟩, ⟨S262144x16x1x3, x1⟩, ⟨S262144x16x1x3, x2⟩] h (ix4 R n (1 : Fin 3) j)
      = x1 (ix4 R n (0 : Fin 1) j) := by
  refine concatenate_apply_piece 2 _ h _ 1 (show (1 : Nat) < 3 by omega) S262144x16x1x3 x1 rfl rfl 1 rfl (ix4 R n 0 j) ?_ ?_
  · intro b hb
    match b with
    | ⟨0, _⟩ => rfl
    | ⟨1, _⟩ => rfl
    | ⟨2, _⟩ => exact absurd rfl hb
    | ⟨3, _⟩ => rfl
  · rfl

theorem join4_2 (x0 x1 x2 : S262144x16x1x3.Idx → α) (h) (R : Fin 262144) (n : Fin 16) (j : Fin 3) :
    concatenate S262144x16x3x3 2 [⟨S262144x16x1x3, x0⟩, ⟨S262144x16x1x3, x1⟩, ⟨S262144x16x1x3, x2⟩] h (ix4 R n (2 : Fin 3) j)
      = x2 (ix4 R n (0 : Fin 1) j) := by
  refine concatenate_apply_piece 2 _ h _ 2 (show (2 : Nat) < 3 by omega) S262144x16x1x3 x2 rfl rfl 2 rfl (ix4 R n 0 j) ?_ ?_
  · intro b hb
    match b with
    | ⟨0, _⟩ => rfl
    | ⟨1, _⟩ => rfl
    | ⟨2, _⟩ => exact absurd rfl hb
    | ⟨3, _⟩ => rfl
  · rfl

end Join

/-! ## The unit pieces of the skew matrix's rows -/

/-- A rank-2 array broadcast to a trailing unit axis reads the array at the leading coordinates. -/
theorem unit_idx (R : Fin 262144) (n : Fin 16) (u : Fin 1) : idx_main_v10 (ix3 R n u) = ix2 R n := by
  funext a
  match a with
  | ⟨0, _⟩ => rfl
  | ⟨1, _⟩ => rfl

theorem pieceZero_apply (R : Fin 262144) (n : Fin 16) (u : Fin 1) :
    val_main_v9 (F := Ideal) (ix3 R n u) = Cert.So3.cZero := by
  rw [val_main_v9_apply, zero_apply]

theorem pieceZero'_apply (R : Fin 262144) (n : Fin 16) (u : Fin 1) :
    val_main_v15 (F := Ideal) (ix3 R n u) = Cert.So3.cZero := by
  rw [val_main_v15_apply, zero_apply]

theorem pieceZero''_apply (R : Fin 262144) (n : Fin 16) (u : Fin 1) :
    val_main_v22 (F := Ideal) (ix3 R n u) = Cert.So3.cZero := by
  rw [val_main_v22_apply, zero_apply]

theorem pieceA_apply (z : (⟨S262144x96, .f32⟩ : BufTy).Contents (Elt Ideal)) (R : Fin 262144) (n : Fin 16) (u : Fin 1) :
    val_main_v10 (F := Ideal) z (ix3 R n u) = z (ix2 R (axisCol n 0)) := by
  rw [val_main_v10_apply, unit_idx, a_apply]

theorem pieceB_apply (z : (⟨S262144x96, .f32⟩ : BufTy).Contents (Elt Ideal)) (R : Fin 262144) (n : Fin 16) (u : Fin 1) :
    val_main_v11 (F := Ideal) z (ix3 R n u) = z (ix2 R (axisCol n 1)) := by
  rw [val_main_v11_apply, show idx_main_v11 (ix3 R n u) = ix2 R n from unit_idx R n u, b_apply]

theorem pieceNegA_apply (z : (⟨S262144x96, .f32⟩ : BufTy).Contents (Elt Ideal)) (R : Fin 262144) (n : Fin 16) (u : Fin 1) :
    val_main_v14 (F := Ideal) z (ix3 R n u) = -z (ix2 R (axisCol n 0)) := by
  rw [val_main_v14_apply, show idx_main_v14 (ix3 R n u) = ix2 R n from unit_idx R n u, val_main_v13_apply, a_apply]
  rfl

theorem pieceC_apply (z : (⟨S262144x96, .f32⟩ : BufTy).Contents (Elt Ideal)) (R : Fin 262144) (n : Fin 16) (u : Fin 1) :
    val_main_v16 (F := Ideal) z (ix3 R n u) = z (ix2 R (axisCol n 2)) := by
  rw [val_main_v16_apply, show idx_main_v16 (ix3 R n u) = ix2 R n from unit_idx R n u, c_apply]

theorem pieceNegB_apply (z : (⟨S262144x96, .f32⟩ : BufTy).Contents (Elt Ideal)) (R : Fin 262144) (n : Fin 16) (u : Fin 1) :
    val_main_v20 (F := Ideal) z (ix3 R n u) = -z (ix2 R (axisCol n 1)) := by
  rw [val_main_v20_apply, show idx_main_v20 (ix3 R n u) = ix2 R n from unit_idx R n u, val_main_v18_apply, b_apply]
  rfl

theorem pieceNegC_apply (z : (⟨S262144x96, .f32⟩ : BufTy).Contents (Elt Ideal)) (R : Fin 262144) (n : Fin 16) (u : Fin 1) :
    val_main_v21 (F := Ideal) z (ix3 R n u) = -z (ix2 R (axisCol n 2)) := by
  rw [val_main_v21_apply, show idx_main_v21 (ix3 R n u) = ix2 R n from unit_idx R n u, val_main_v19_apply, c_apply]
  rfl

/-! ## The three rows and the matrix -/

/-- Row 0 of the skew matrix: [0, a, b]. -/
theorem row0_apply (z : (⟨S262144x96, .f32⟩ : BufTy).Contents (Elt Ideal)) (R : Fin 262144) (n : Fin 16) (k : Fin 3) :
    val_main_v12 (F := Ideal) z (ix3 R n k)
      = Cert.So3.skew (z (ix2 R (axisCol n 0))) (z (ix2 R (axisCol n 1))) (z (ix2 R (axisCol n 2))) 0 k := by
  match k with
  | ⟨0, _⟩ => exact (join3_0 _ _ _ _ R n).trans (pieceZero_apply R n 0)
  | ⟨1, _⟩ => exact (join3_1 _ _ _ _ R n).trans (pieceA_apply z R n 0)
  | ⟨2, _⟩ => exact (join3_2 _ _ _ _ R n).trans (pieceB_apply z R n 0)

/-- Row 1: [-a, 0, c]. -/
theorem row1_apply (z : (⟨S262144x96, .f32⟩ : BufTy).Contents (Elt Ideal)) (R : Fin 262144) (n : Fin 16) (k : Fin 3) :
    val_main_v17 (F := Ideal) z (ix3 R n k)
      = Cert.So3.skew (z (ix2 R (axisCol n 0))) (z (ix2 R (axisCol n 1))) (z (ix2 R (axisCol n 2))) 1 k := by
  match k with
  | ⟨0, _⟩ => exact (join3_0 _ _ _ _ R n).trans (pieceNegA_apply z R n 0)
  | ⟨1, _⟩ => exact (join3_1 _ _ _ _ R n).trans (pieceZero'_apply R n 0)
  | ⟨2, _⟩ => exact (join3_2 _ _ _ _ R n).trans (pieceC_apply z R n 0)

/-- Row 2: [-b, -c, 0]. -/
theorem row2_apply (z : (⟨S262144x96, .f32⟩ : BufTy).Contents (Elt Ideal)) (R : Fin 262144) (n : Fin 16) (k : Fin 3) :
    val_main_v23 (F := Ideal) z (ix3 R n k)
      = Cert.So3.skew (z (ix2 R (axisCol n 0))) (z (ix2 R (axisCol n 1))) (z (ix2 R (axisCol n 2))) 2 k := by
  match k with
  | ⟨0, _⟩ => exact (join3_0 _ _ _ _ R n).trans (pieceNegB_apply z R n 0)
  | ⟨1, _⟩ => exact (join3_1 _ _ _ _ R n).trans (pieceNegC_apply z R n 0)
  | ⟨2, _⟩ => exact (join3_2 _ _ _ _ R n).trans (pieceZero''_apply R n 0)

/-- A row placed as a one-row block reads the row at the column. -/
theorem block_idx (R : Fin 262144) (n : Fin 16) (u : Fin 1) (j : Fin 3) : idx_main_v24 (ix4 R n u j) = ix3 R n j := by
  funext a
  match a with
  | ⟨0, _⟩ => rfl
  | ⟨1, _⟩ => rfl
  | ⟨2, _⟩ => rfl

/-- The reference's matrix A is the skew matrix of the axis vector. -/
theorem A_apply (z : (⟨S262144x96, .f32⟩ : BufTy).Contents (Elt Ideal)) (R : Fin 262144) (n : Fin 16) (i j : Fin 3) :
    val_main_v27 (F := Ideal) z (ix4 R n i j)
      = Cert.So3.skew (z (ix2 R (axisCol n 0))) (z (ix2 R (axisCol n 1))) (z (ix2 R (axisCol n 2))) i j := by
  match i with
  | ⟨0, _⟩ =>
    refine (join4_0 _ _ _ _ R n j).trans ?_
    rw [val_main_v24_apply, block_idx]
    exact row0_apply z R n j
  | ⟨1, _⟩ =>
    refine (join4_1 _ _ _ _ R n j).trans ?_
    rw [val_main_v25_apply, show idx_main_v25 (ix4 R n (0 : Fin 1) j) = ix3 R n j from block_idx R n 0 j]
    exact row1_apply z R n j
  | ⟨2, _⟩ =>
    refine (join4_2 _ _ _ _ R n j).trans ?_
    rw [val_main_v26_apply, show idx_main_v26 (ix4 R n (0 : Fin 1) j) = ix3 R n j from block_idx R n 0 j]
    exact row2_apply z R n j

/-! ## The coefficients -/

/-- The squared angle. -/
theorem th2_apply (z : (⟨S262144x96, .f32⟩ : BufTy).Contents (Elt Ideal)) (R : Fin 262144) (n : Fin 16) :
    val_main_v32 (F := Ideal) z (ix2 R n)
      = Cert.So3.th2 (z (ix2 R (axisCol n 0))) (z (ix2 R (axisCol n 1))) (z (ix2 R (axisCol n 2))) := by
  rw [val_main_v32_apply, val_main_v30_apply, val_main_v28_apply, val_main_v29_apply, val_main_v31_apply,
    a_apply, b_apply, c_apply]
  rfl

/-- The comparison of the squared angle with the threshold. -/
theorem small_apply (z : (⟨S262144x96, .f32⟩ : BufTy).Contents (Elt Ideal)) (R : Fin 262144) (n : Fin 16) :
    val_main_v34 (F := Ideal) z (ix2 R n)
      = Cert.So3.small (z (ix2 R (axisCol n 0))) (z (ix2 R (axisCol n 1))) (z (ix2 R (axisCol n 2))) := by
  rw [val_main_v34_apply, val_main_v33_apply, val_main_cst_0_apply, th2_apply]
  rfl

/-- The safe denominator. -/
theorem t2_apply (z : (⟨S262144x96, .f32⟩ : BufTy).Contents (Elt Ideal)) (R : Fin 262144) (n : Fin 16) :
    val_main_v36 (F := Ideal) z (ix2 R n)
      = Cert.So3.t2 (z (ix2 R (axisCol n 0))) (z (ix2 R (axisCol n 1))) (z (ix2 R (axisCol n 2))) := by
  rw [val_main_v36_apply, small_apply, val_main_v35_apply, val_main_cst_1_apply, th2_apply]
  rfl

/-- The angle. -/
theorem t_apply (z : (⟨S262144x96, .f32⟩ : BufTy).Contents (Elt Ideal)) (R : Fin 262144) (n : Fin 16) :
    val_main_v37 (F := Ideal) z (ix2 R n)
      = Ideal.sqrt (Cert.So3.t2 (z (ix2 R (axisCol n 0))) (z (ix2 R (axisCol n 1))) (z (ix2 R (axisCol n 2)))) := by
  rw [val_main_v37_apply, t2_apply]
  rfl

/-- The coefficient of A. -/
theorem s1_apply (z : (⟨S262144x96, .f32⟩ : BufTy).Contents (Elt Ideal)) (R : Fin 262144) (n : Fin 16) :
    val_main_v44 (F := Ideal) z (ix2 R n)
      = Cert.So3.s1 (z (ix2 R (axisCol n 0))) (z (ix2 R (axisCol n 1))) (z (ix2 R (axisCol n 2))) := by
  rw [val_main_v44_apply, small_apply, val_main_v41_apply, val_main_v40_apply, val_main_cst_3_apply,
    val_main_v39_apply, th2_apply, val_main_v38_apply, val_main_cst_2_apply,
    val_main_v43_apply, val_main_v42_apply, t_apply]
  rfl

/-- The coefficient of A·A. -/
theorem s2_apply (z : (⟨S262144x96, .f32⟩ : BufTy).Contents (Elt Ideal)) (R : Fin 262144) (n : Fin 16) :
    val_main_v53 (F := Ideal) z (ix2 R n)
      = Cert.So3.s2 (z (ix2 R (axisCol n 0))) (z (ix2 R (axisCol n 1))) (z (ix2 R (axisCol n 2))) := by
  rw [val_main_v53_apply, small_apply, val_main_v48_apply, val_main_v47_apply, val_main_cst_5_apply,
    val_main_v46_apply, th2_apply, val_main_v45_apply, val_main_cst_4_apply,
    val_main_v52_apply, val_main_v51_apply, val_main_v50_apply, val_main_cst_6_apply, val_main_v49_apply,
    t_apply, t2_apply]
  rfl

/-- A per-Gaussian scalar spread over the matrix reads the scalar. -/
theorem spread_idx (R : Fin 262144) (n : Fin 16) (i j : Fin 3) :
    idx_main_v61 (idx_main_v62 (ix4 R n i j)) = ix2 R n := by
  funext a
  match a with
  | ⟨0, _⟩ => rfl
  | ⟨1, _⟩ => rfl

theorem s1Spread_apply (z : (⟨S262144x96, .f32⟩ : BufTy).Contents (Elt Ideal)) (R : Fin 262144) (n : Fin 16) (i j : Fin 3) :
    val_main_v62 (F := Ideal) z (ix4 R n i j)
      = Cert.So3.s1 (z (ix2 R (axisCol n 0))) (z (ix2 R (axisCol n 1))) (z (ix2 R (axisCol n 2))) := by
  rw [val_main_v62_apply, val_main_v61_apply, spread_idx, s1_apply]

theorem s2Spread_apply (z : (⟨S262144x96, .f32⟩ : BufTy).Contents (Elt Ideal)) (R : Fin 262144) (n : Fin 16) (i j : Fin 3) :
    val_main_v68 (F := Ideal) z (ix4 R n i j)
      = Cert.So3.s2 (z (ix2 R (axisCol n 0))) (z (ix2 R (axisCol n 1))) (z (ix2 R (axisCol n 2))) := by
  rw [val_main_v68_apply, val_main_v67_apply,
    show idx_main_v67 (idx_main_v68 (ix4 R n i j)) = ix2 R n from spread_idx R n i j, s2_apply]

/-! ## The identity and the matrix product -/

/-- The broadcast identity matrix. -/
theorem eye_apply (R : Fin 262144) (n : Fin 16) (i j : Fin 3) :
    val_main_v65 (F := Ideal) (ix4 R n i j) = Cert.So3.eye i j := by
  rw [val_main_v65_apply, val_main_v64_apply, val_main_v60_apply, val_main_v59_apply, val_main_v58_apply,
    val_main_v55_apply, val_main_v56_apply, val_main_v57_apply, val_main_c_apply]
  rfl

/-- Entry (i, j) of A·A. -/
theorem AA_apply (z : (⟨S262144x96, .f32⟩ : BufTy).Contents (Elt Ideal)) (R : Fin 262144) (n : Fin 16) (i j : Fin 3) :
    val_main_v54 (F := Ideal) z (ix4 R n i j)
      = ∑ k : Fin 3,
          Cert.So3.skew (z (ix2 R (axisCol n 0))) (z (ix2 R (axisCol n 1))) (z (ix2 R (axisCol n 2))) i k
          * Cert.So3.skew (z (ix2 R (axisCol n 0))) (z (ix2 R (axisCol n 1))) (z (ix2 R (axisCol n 2))) k j := by
  rw [val_main_v54_apply]
  refine Finset.sum_congr rfl (fun k _ => ?_)
  have el : lidx_main_v54 (ix4 R n i j) k = ix4 R n i k := by
    funext a
    match a with
    | ⟨0, _⟩ => rfl
    | ⟨1, _⟩ => rfl
    | ⟨2, _⟩ => rfl
    | ⟨3, _⟩ => rfl
  have er : ridx_main_v54 (ix4 R n i j) k = ix4 R n k j := by
    funext a
    match a with
    | ⟨0, _⟩ => rfl
    | ⟨1, _⟩ => rfl
    | ⟨2, _⟩ => rfl
    | ⟨3, _⟩ => rfl
  rw [el, er, A_apply, A_apply]

/-- Entry (i, j) of Gaussian n of row R of the reference's mean is I + s1·A + s2·(A·A) at that Gaussian's axis vector. -/
theorem mean_apply (z : (⟨S262144x96, .f32⟩ : BufTy).Contents (Elt Ideal)) (R : Fin 262144) (n : Fin 16) (i j : Fin 3) :
    val_main_v70 (F := Ideal) z (ix4 R n i j) = Cert.So3.meanProduct z R n i j := by
  rw [val_main_v70_apply, val_main_v66_apply, val_main_v69_apply, val_main_v63_apply, eye_apply, A_apply, AA_apply,
    s1Spread_apply, s2Spread_apply]
  rfl

/-- Entry k of Gaussian n of row R of the reference's log-variance. -/
theorem logvar_apply (z : (⟨S262144x96, .f32⟩ : BufTy).Contents (Elt Ideal)) (R : Fin 262144) (n : Fin 16) (k : Fin 3) :
    val_main_v82 (F := Ideal) z (ix3 R n k) = Cert.So3.logvarOf z R n k := by
  have e : idx_main_v71 (idx_main_v72 (ix3 R n k)) = ix2 R (logitCol n k) := by
    funext a
    match a with
    | ⟨0, _⟩ => exact Fin.ext (show ((R.val * 16 + n.val) * 3 + k.val) / 48 = R.val by omega)
    | ⟨1, _⟩ => exact Fin.ext (show 48 + ((R.val * 16 + n.val) * 3 + k.val) % 48 = 48 + 3 * n.val + k.val by omega)
  rw [val_main_v82_apply, val_main_v80_apply, val_main_v81_apply, val_main_cst_10_apply, val_main_v79_apply,
    val_main_cst_9_apply, val_main_v78_apply, val_main_v77_apply, val_main_cst_8_apply, val_main_v76_apply,
    val_main_v75_apply, val_main_cst_7_apply, val_main_v74_apply, val_main_v73_apply, val_main_v72_apply,
    val_main_v71_apply, e]
  exact Cert.So3.logvar_spelled (z (ix2 R (logitCol n k)))

/-- The reference's mean as an array. -/
theorem mean_eq (z : (⟨S262144x96, .f32⟩ : BufTy).Contents (Elt Ideal)) :
    val_main_v70 (F := Ideal) z = fun y => Cert.So3.meanProduct z (y 0) (y 1) (y 2) (y 3) := by
  funext y
  obtain ⟨R, n, i, j, rfl⟩ : ∃ (R : Fin 262144) (n : Fin 16) (i j : Fin 3), y = ix4 R n i j := ⟨y 0, y 1, y 2, y 3, eq_ix4 y⟩
  exact mean_apply z R n i j

/-- The reference's log-variance as an array. -/
theorem logvar_eq (z : (⟨S262144x96, .f32⟩ : BufTy).Contents (Elt Ideal)) :
    val_main_v82 (F := Ideal) z = Cert.So3.logvarArr z := by
  funext y
  obtain ⟨R, n, k, rfl⟩ : ∃ (R : Fin 262144) (n : Fin 16) (k : Fin 3), y = ix3 R n k := ⟨y 0, y 1, y 2, eq_ix3 y⟩
  exact logvar_apply z R n k

end Cert.ReferenceIdeal.RefValue

end
-- ==== Proof.Finite.lean ====
/-
  The precondition says every entry of the input has absolute value below +∞. An extended real with |x| < +∞ is
  neither infinity, so it is a real number.
-/
import proofs.«181025_j83631603187719_1_alg».proof.Pre_finite_inputs
import proofs.«181025_j83631603187719_1_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic

instance : Subsingleton Cert.Pre_finite_inputs.S_.Idx := ⟨fun a b => funext fun d => d.elim0⟩

/-- The f32 pattern 0x7F800000 is +∞. -/
theorem ofBits_inf : Ideal.ofBits .f32 0x7F800000#32 = ⊤ := by
  simp [Ideal.ofBits, Ideal.ieee]

/-- An extended real whose absolute value is below +∞ is a real. -/
theorem real_of_abs_lt_top (x : EReal) (h : max x (-x) < ⊤) : ∃ r : ℝ, x = (r : EReal) := by
  induction x with
  | bot => simp at h
  | top => simp at h
  | coe r => exact ⟨r, rfl⟩

/-- Under the precondition every entry of the input array is a real number. -/
theorem all_real (z : FVec Ideal Cert.Pre_finite_inputs.S262144x96 .f32)
    (h : Cert.Pre_finite_inputs.fn (F := Ideal) z = fun _ => 1#1) (y : Cert.Pre_finite_inputs.S262144x96.Idx) :
    ∃ r : ℝ, z y = (r : EReal) := by
  have h0 := congrFun h ValueIdx.ix0
  dsimp only [Cert.Pre_finite_inputs.fn] at h0
  have hy := Host.reduce_andi_all _ _ _ _ _ h0 y
  have hy' : Ideal.cmp .olt (max (z y) (-(z y))) (Ideal.ofBits .f32 0x7F800000#32) = 1#1 := hy
  rw [ofBits_inf] at hy'
  refine real_of_abs_lt_top (z y) ?_
  unfold Ideal.cmp at hy'
  by_contra hc
  simp [hc] at hy'

end Cert.Finite

end
-- ==== Proof.lean ====
/-
  The two programs compute the rotation exp(A) of a batch of 3 × 3 skew matrices and a squashed log-variance.

  The kernel repacks each row's axis vectors (a, b, c), runs one region over 256 blocks of 1024 rows, and in the body
  uses the closed form A² = w wᵀ - t² I of Rodrigues' formula I + s1·A + s2·A²; the reference builds A, multiplies it by
  itself with a batched matrix product, and adds the three terms. On a finite input a, b, c are real numbers, and the
  nine entries agree by the ring laws of the reals together with x·0 = 0, x·(-r) = -(x·r), 0 + x = x and 0 - x = -x on
  the extended reals; the coefficients s1 and s2 are the same extended reals on both sides and are never opened. The
  log-variance 5.4·σ(x) - 9.2 is one operation in the kernel and 1 / (1 + e^{-x}) spelled out in the reference: the same
  function by definition.

  The frames: the kernel programs' by the region's proof data (each window's staging buffer holds its block, the body
  stores whole blocks and keeps nothing between points), at the word level and at the extended reals alike; the
  reference's is its run with the results dropped. Nothing was rewritten by the idealization, so the preservation
  conjunct has no content.
-/
import proofs.«181025_j83631603187719_1_alg».proof.Defs
import proofs.«181025_j83631603187719_1_alg».proof.Proof.Gen.Kernel
import proofs.«181025_j83631603187719_1_alg».proof.Proof.Gen.KernelIdeal
import proofs.«181025_j83631603187719_1_alg».proof.Proof.Gen.ReferenceIdeal
import proofs.«181025_j83631603187719_1_alg».proof.Proof.Gen.ReferenceIdeal.Run
import proofs.«181025_j83631603187719_1_alg».proof.Proof.Gen.ReferenceIdeal.Read
import proofs.«181025_j83631603187719_1_alg».proof.Proof.Gen.Pre_finite_inputs
import proofs.«181025_j83631603187719_1_alg».proof.Proof.KFrameBits
import proofs.«181025_j83631603187719_1_alg».proof.Proof.KRun
import proofs.«181025_j83631603187719_1_alg».proof.Proof.RefValue
import proofs.«181025_j83631603187719_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and keeps its argument. -/
theorem frame_k : Cert.frame_Kernel := fun m ρ _ => Cert.Kernel.Frm.frame m ρ

/-- The idealized kernel program runs and keeps its argument. -/
theorem frame_ki : Cert.frame_KernelIdeal := fun m ρ _ => Cert.KernelIdeal.Frm.frame m ρ

/-- The reference runs and keeps its argument: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the same two arrays: the kernel's mean is the closed form, the reference's the matrix
    product, equal on an input of reals; both log-variances are 5.4·σ(x) - 9.2. -/
theorem algebraic : Cert.algebraic_KernelIdeal_ReferenceIdeal := by
  intro m ρ m' ρ' hpre hagree
  refine ⟨_, _, Cert.KernelIdeal.KRun.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v70_eq, Cert.ReferenceIdeal.RefValue.mean_eq, hagree c]
    funext y
    exact (Cert.So3.meanClosed_eq_meanProduct _ (Cert.Finite.all_real _ (hpre c)) (y 0) (y 1) (y 2) (y 3)).symm
  · rw [(h c).2.1, Cert.ReferenceIdeal.Read.val_main_v82_eq, Cert.ReferenceIdeal.RefValue.logvar_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
